-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x64x64 : Shape := ⟨4, ![8, 3, 64, 64]⟩
abbrev S64x3x5x5 : Shape := ⟨4, ![64, 3, 5, 5]⟩
abbrev S_ : Shape := ⟨0, ![]⟩

class Facts : Prop where
  bcast_S_S8x3x64x64 : S_.BroadcastsInDim S8x3x64x64 (![] : Fin 0 → Fin S8x3x64x64.rank)
  reducesTo_S8x3x64x64_S_d0_1_2_3 : S8x3x64x64.ReducesTo [0, 1, 2, 3] S_
  h_S_ : 0 < S_.numel
  bcast_S_S64x3x5x5 : S_.BroadcastsInDim S64x3x5x5 (![] : Fin 0 → Fin S64x3x5x5.rank)
  reducesTo_S64x3x5x5_S_d0_1_2_3 : S64x3x5x5.ReducesTo [0, 1, 2, 3] S_

variable [Facts]

def fn {F : FTy → Type} [FloatOps F] (main_arg0 : FVec F S8x3x64x64 .f32) (main_arg1 : FVec F S64x3x5x5 .f32) : IVec S_ 1 :=
  let main_v0 : FVec F S8x3x64x64 .f32 := Host.absf main_arg0
  let main_cst : FVec F S_ .f32 := constant S_ .f32 0x7F800000#32
  let main_v1 : FVec F S8x3x64x64 .f32 := broadcastInDim S8x3x64x64 ![] bcast_S_S8x3x64x64 main_cst
  let main_v2 : IVec S8x3x64x64 1 := cmpf .olt main_v0 main_v1
  let main_c : IVec S_ 1 := constantI S_ 1 1#1
  let main_v3 : IVec S_ 1 := (fun x v => Host.reduce IntOp.andi x v reducesTo_S8x3x64x64_S_d0_1_2_3 h_S_) main_v2 main_c
  let main_v4 : FVec F S64x3x5x5 .f32 := Host.absf main_arg1
  let main_cst_0 : FVec F S_ .f32 := constant S_ .f32 0x7F800000#32
  let main_v5 : FVec F S64x3x5x5 .f32 := broadcastInDim S64x3x5x5 ![] bcast_S_S64x3x5x5 main_cst_0
  let main_v6 : IVec S64x3x5x5 1 := cmpf .olt main_v4 main_v5
  let main_c_1 : IVec S_ 1 := constantI S_ 1 1#1
  let main_v7 : IVec S_ 1 := (fun x v => Host.reduce IntOp.andi x v reducesTo_S64x3x5x5_S_d0_1_2_3 h_S_) main_v6 main_c_1
  let main_v8 : IVec S_ 1 := andi main_v3 main_v7
  main_v8
-- ==== Kernel.lean ====
abbrev S8x3x64x64 : Shape := ⟨4, ![8, 3, 64, 64]⟩
abbrev S64x3x5x5 : Shape := ⟨4, ![64, 3, 5, 5]⟩
abbrev S_ : Shape := ⟨0, ![]⟩
abbrev S8x3x68x68 : Shape := ⟨4, ![8, 3, 68, 68]⟩
abbrev S8x64x64x64 : Shape := ⟨4, ![8, 64, 64, 64]⟩
abbrev S1x3x68x68 : Shape := ⟨4, ![1, 3, 68, 68]⟩
abbrev S1x64x64x64 : Shape := ⟨4, ![1, 64, 64, 64]⟩
abbrev S3x68x68 : Shape := ⟨3, ![3, 68, 68]⟩
abbrev S1x64x64 : Shape := ⟨3, ![1, 64, 64]⟩
abbrev S64x64 : Shape := ⟨2, ![64, 64]⟩
abbrev S75x64x64 : Shape := ⟨3, ![75, 64, 64]⟩
abbrev S75x4096 : Shape := ⟨2, ![75, 4096]⟩
abbrev S64x75 : Shape := ⟨2, ![64, 75]⟩
abbrev S4096 : Shape := ⟨1, ![4096]⟩
abbrev S64 : Shape := ⟨1, ![64]⟩
abbrev S64x4096 : Shape := ⟨2, ![64, 4096]⟩
abbrev S1x4096 : Shape := ⟨2, ![1, 4096]⟩
abbrev S64x1 : Shape := ⟨2, ![64, 1]⟩
abbrev S64x64x64 : Shape := ⟨3, ![64, 64, 64]⟩

abbrev nBuf : Space → Nat
  | .hbm => 6
  | .vmem => 5
  | .smem => 0
  | _ => 0

abbrev bufTy : (tb : Table) → Fin (tcTables nBuf tb) → BufTy
  | .hbm, ⟨0, _⟩ => ⟨S8x3x64x64, .f32⟩
  | .hbm, ⟨1, _⟩ => ⟨S64x3x5x5, .f32⟩
  | .hbm, ⟨2, _⟩ => ⟨S_, .i32⟩
  | .hbm, ⟨3, _⟩ => ⟨S_, .f32⟩
  | .hbm, ⟨4, _⟩ => ⟨S8x3x68x68, .f32⟩
  | .hbm, ⟨5, _⟩ => ⟨S8x64x64x64, .f32⟩
  | .local _ .vmem, ⟨0, _⟩ => ⟨S1x3x68x68, .f32⟩
  | .local _ .vmem, ⟨1, _⟩ => ⟨S1x3x68x68, .f32⟩
  | .local _ .vmem, ⟨2, _⟩ => ⟨S64x3x5x5, .f32⟩
  | .local _ .vmem, ⟨3, _⟩ => ⟨S1x64x64x64, .f32⟩
  | .local _ .vmem, ⟨4, _⟩ => ⟨S1x64x64x64, .f32⟩
  | _, _ => ⟨S8x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x68x68 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3x5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x3x64x64_S8x3x68x68_000_000_220_220 : S8x3x64x64.Pads (![0, 0, 2, 2] : Fin 4 → Nat) ![0, 0, 2, 2] ![0, 0, 0, 0] S8x3x68x68
  h_S_ : 0 < S_.numel
  inb_S1x3x68x68_S1x3x68x68_0_0_0_0 : ∀ a, (![0, 0, 0, 0] : Fin 4 → Nat) a + S1x3x68x68.size a ≤ S1x3x68x68.size a
  h_S1x3x68x68 : 0 < S1x3x68x68.numel
  shapeCasts_S1x3x68x68_S3x68x68 : S1x3x68x68.ShapeCasts S3x68x68
  inb_S64x3x5x5_S64x3x5x5_0_0_0_0 : ∀ a, (![0, 0, 0, 0] : Fin 4 → Nat) a + S64x3x5x5.size a ≤ S64x3x5x5.size a
  h_S64x3x5x5 : 0 < S64x3x5x5.numel
  slices_S3x68x68_o0_0_0_S1x64x64 : S3x68x68.Slices ![0, 0, 0] S1x64x64
  shapeCasts_S1x64x64_S64x64 : S1x64x64.ShapeCasts S64x64
  slices_S3x68x68_o0_0_1_S1x64x64 : S3x68x68.Slices ![0, 0, 1] S1x64x64
  slices_S3x68x68_o0_0_2_S1x64x64 : S3x68x68.Slices ![0, 0, 2] S1x64x64
  slices_S3x68x68_o0_0_3_S1x64x64 : S3x68x68.Slices ![0, 0, 3] S1x64x64
  slices_S3x68x68_o0_0_4_S1x64x64 : S3x68x68.Slices ![0, 0, 4] S1x64x64
  slices_S3x68x68_o0_1_0_S1x64x64 : S3x68x68.Slices ![0, 1, 0] S1x64x64
  slices_S3x68x68_o0_1_1_S1x64x64 : S3x68x68.Slices ![0, 1, 1] S1x64x64
  slices_S3x68x68_o0_1_2_S1x64x64 : S3x68x68.Slices ![0, 1, 2] S1x64x64
  slices_S3x68x68_o0_1_3_S1x64x64 : S3x68x68.Slices ![0, 1, 3] S1x64x64
  slices_S3x68x68_o0_1_4_S1x64x64 : S3x68x68.Slices ![0, 1, 4] S1x64x64
  slices_S3x68x68_o0_2_0_S1x64x64 : S3x68x68.Slices ![0, 2, 0] S1x64x64
  slices_S3x68x68_o0_2_1_S1x64x64 : S3x68x68.Slices ![0, 2, 1] S1x64x64
  slices_S3x68x68_o0_2_2_S1x64x64 : S3x68x68.Slices ![0, 2, 2] S1x64x64
  slices_S3x68x68_o0_2_3_S1x64x64 : S3x68x68.Slices ![0, 2, 3] S1x64x64
  slices_S3x68x68_o0_2_4_S1x64x64 : S3x68x68.Slices ![0, 2, 4] S1x64x64
  slices_S3x68x68_o0_3_0_S1x64x64 : S3x68x68.Slices ![0, 3, 0] S1x64x64
  slices_S3x68x68_o0_3_1_S1x64x64 : S3x68x68.Slices ![0, 3, 1] S1x64x64
  slices_S3x68x68_o0_3_2_S1x64x64 : S3x68x68.Slices ![0, 3, 2] S1x64x64
  slices_S3x68x68_o0_3_3_S1x64x64 : S3x68x68.Slices ![0, 3, 3] S1x64x64
  slices_S3x68x68_o0_3_4_S1x64x64 : S3x68x68.Slices ![0, 3, 4] S1x64x64
  slices_S3x68x68_o0_4_0_S1x64x64 : S3x68x68.Slices ![0, 4, 0] S1x64x64
  slices_S3x68x68_o0_4_1_S1x64x64 : S3x68x68.Slices ![0, 4, 1] S1x64x64
  slices_S3x68x68_o0_4_2_S1x64x64 : S3x68x68.Slices ![0, 4, 2] S1x64x64
  slices_S3x68x68_o0_4_3_S1x64x64 : S3x68x68.Slices ![0, 4, 3] S1x64x64
  slices_S3x68x68_o0_4_4_S1x64x64 : S3x68x68.Slices ![0, 4, 4] S1x64x64
  slices_S3x68x68_o1_0_0_S1x64x64 : S3x68x68.Slices ![1, 0, 0] S1x64x64
  slices_S3x68x68_o1_0_1_S1x64x64 : S3x68x68.Slices ![1, 0, 1] S1x64x64
  slices_S3x68x68_o1_0_2_S1x64x64 : S3x68x68.Slices ![1, 0, 2] S1x64x64
  slices_S3x68x68_o1_0_3_S1x64x64 : S3x68x68.Slices ![1, 0, 3] S1x64x64
  slices_S3x68x68_o1_0_4_S1x64x64 : S3x68x68.Slices ![1, 0, 4] S1x64x64
  slices_S3x68x68_o1_1_0_S1x64x64 : S3x68x68.Slices ![1, 1, 0] S1x64x64
  slices_S3x68x68_o1_1_1_S1x64x64 : S3x68x68.Slices ![1, 1, 1] S1x64x64
  slices_S3x68x68_o1_1_2_S1x64x64 : S3x68x68.Slices ![1, 1, 2] S1x64x64
  slices_S3x68x68_o1_1_3_S1x64x64 : S3x68x68.Slices ![1, 1, 3] S1x64x64
  slices_S3x68x68_o1_1_4_S1x64x64 : S3x68x68.Slices ![1, 1, 4] S1x64x64
  slices_S3x68x68_o1_2_0_S1x64x64 : S3x68x68.Slices ![1, 2, 0] S1x64x64
  slices_S3x68x68_o1_2_1_S1x64x64 : S3x68x68.Slices ![1, 2, 1] S1x64x64
  slices_S3x68x68_o1_2_2_S1x64x64 : S3x68x68.Slices ![1, 2, 2] S1x64x64
  slices_S3x68x68_o1_2_3_S1x64x64 : S3x68x68.Slices ![1, 2, 3] S1x64x64
  slices_S3x68x68_o1_2_4_S1x64x64 : S3x68x68.Slices ![1, 2, 4] S1x64x64
  slices_S3x68x68_o1_3_0_S1x64x64 : S3x68x68.Slices ![1, 3, 0] S1x64x64
  slices_S3x68x68_o1_3_1_S1x64x64 : S3x68x68.Slices ![1, 3, 1] S1x64x64
  slices_S3x68x68_o1_3_2_S1x64x64 : S3x68x68.Slices ![1, 3, 2] S1x64x64
  slices_S3x68x68_o1_3_3_S1x64x64 : S3x68x68.Slices ![1, 3, 3] S1x64x64
  slices_S3x68x68_o1_3_4_S1x64x64 : S3x68x68.Slices ![1, 3, 4] S1x64x64
  slices_S3x68x68_o1_4_0_S1x64x64 : S3x68x68.Slices ![1, 4, 0] S1x64x64
  slices_S3x68x68_o1_4_1_S1x64x64 : S3x68x68.Slices ![1, 4, 1] S1x64x64
  slices_S3x68x68_o1_4_2_S1x64x64 : S3x68x68.Slices ![1, 4, 2] S1x64x64
  slices_S3x68x68_o1_4_3_S1x64x64 : S3x68x68.Slices ![1, 4, 3] S1x64x64
  slices_S3x68x68_o1_4_4_S1x64x64 : S3x68x68.Slices ![1, 4, 4] S1x64x64
  slices_S3x68x68_o2_0_0_S1x64x64 : S3x68x68.Slices ![2, 0, 0] S1x64x64
  slices_S3x68x68_o2_0_1_S1x64x64 : S3x68x68.Slices ![2, 0, 1] S1x64x64
  slices_S3x68x68_o2_0_2_S1x64x64 : S3x68x68.Slices ![2, 0, 2] S1x64x64
  slices_S3x68x68_o2_0_3_S1x64x64 : S3x68x68.Slices ![2, 0, 3] S1x64x64
  slices_S3x68x68_o2_0_4_S1x64x64 : S3x68x68.Slices ![2, 0, 4] S1x64x64
  slices_S3x68x68_o2_1_0_S1x64x64 : S3x68x68.Slices ![2, 1, 0] S1x64x64
  slices_S3x68x68_o2_1_1_S1x64x64 : S3x68x68.Slices ![2, 1, 1] S1x64x64
  slices_S3x68x68_o2_1_2_S1x64x64 : S3x68x68.Slices ![2, 1, 2] S1x64x64
  slices_S3x68x68_o2_1_3_S1x64x64 : S3x68x68.Slices ![2, 1, 3] S1x64x64
  slices_S3x68x68_o2_1_4_S1x64x64 : S3x68x68.Slices ![2, 1, 4] S1x64x64
  slices_S3x68x68_o2_2_0_S1x64x64 : S3x68x68.Slices ![2, 2, 0] S1x64x64
  slices_S3x68x68_o2_2_1_S1x64x64 : S3x68x68.Slices ![2, 2, 1] S1x64x64
  slices_S3x68x68_o2_2_2_S1x64x64 : S3x68x68.Slices ![2, 2, 2] S1x64x64
  slices_S3x68x68_o2_2_3_S1x64x64 : S3x68x68.Slices ![2, 2, 3] S1x64x64
  slices_S3x68x68_o2_2_4_S1x64x64 : S3x68x68.Slices ![2, 2, 4] S1x64x64
  slices_S3x68x68_o2_3_0_S1x64x64 : S3x68x68.Slices ![2, 3, 0] S1x64x64
  slices_S3x68x68_o2_3_1_S1x64x64 : S3x68x68.Slices ![2, 3, 1] S1x64x64
  slices_S3x68x68_o2_3_2_S1x64x64 : S3x68x68.Slices ![2, 3, 2] S1x64x64
  slices_S3x68x68_o2_3_3_S1x64x64 : S3x68x68.Slices ![2, 3, 3] S1x64x64
  slices_S3x68x68_o2_3_4_S1x64x64 : S3x68x68.Slices ![2, 3, 4] S1x64x64
  slices_S3x68x68_o2_4_0_S1x64x64 : S3x68x68.Slices ![2, 4, 0] S1x64x64
  slices_S3x68x68_o2_4_1_S1x64x64 : S3x68x68.Slices ![2, 4, 1] S1x64x64
  slices_S3x68x68_o2_4_2_S1x64x64 : S3x68x68.Slices ![2, 4, 2] S1x64x64
  slices_S3x68x68_o2_4_3_S1x64x64 : S3x68x68.Slices ![2, 4, 3] S1x64x64
  slices_S3x68x68_o2_4_4_S1x64x64 : S3x68x68.Slices ![2, 4, 4] S1x64x64
  shapeCasts_S64x64_S1x64x64 : S64x64.ShapeCasts S1x64x64
  concatenates_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S1x64x64_S75x64x64_d0 : Shape.Concatenates (S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: S1x64x64 :: []) S75x64x64 0
  shapeCasts_S75x64x64_S75x4096 : S75x64x64.ShapeCasts S75x4096
  shapeCasts_S64x3x5x5_S64x75 : S64x3x5x5.ShapeCasts S64x75
  reduces_S75x4096_S4096 : S75x4096.Reduces [0] S4096
  reduces_S64x75_S64 : S64x75.Reduces [1] S64
  shapeCasts_S4096_S1x4096 : S4096.ShapeCasts S1x4096
  shapeCasts_S64_S64x1 : S64.ShapeCasts S64x1
  broadcasts_S1x4096_S64x4096 : S1x4096.Broadcasts S64x4096
  broadcasts_S64x1_S64x4096 : S64x1.Broadcasts S64x4096
  shapeCasts_S64x4096_S64x64x64 : S64x4096.ShapeCasts S64x64x64
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S1x64x64x64 : S64x64x64.ShapeCasts S1x64x64x64
  dot_S64x75_S75x4096_S64x4096_1_0_0_1_n_n_wf : DotDims.WF S64x75 S75x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x68x68.size a ≤ S8x3x68x68.size a
  hwx0_0 : ∀ i : grid0.Coords, EltTy.bits .f32 = 32 ∨ (Rect.block (s := S8x3x68x68) S1x3x68x68.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3x5x5.size a ≤ S64x3x5x5.size a
  hwx0_1 : ∀ i : grid0.Coords, EltTy.bits .f32 = 32 ∨ (Rect.block (s := S64x3x5x5) S64x3x5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S8x64x64x64.size a
  hwx0_2 : ∀ i : grid0.Coords, EltTy.bits .f32 = 32 ∨ (Rect.block (s := S8x64x64x64) S1x64x64x64.size (cc0_transform_2 i) (hinb0_2 i)).WholeWords (EltTy.packing .f32)

variable [Facts₀]

def dot_S64x75_S75x4096_S64x4096_1_0_0_1_n_n : DotDims S64x75 S75x4096 S64x4096 where
  lhsContracting := [1]
  rhsContracting := [0]
  lhsNonContracting := [0]
  rhsNonContracting := [1]
  lhsBatch := []
  rhsBatch := []
  wf := dot_S64x75_S75x4096_S64x4096_1_0_0_1_n_n_wf

abbrev win0_0 : Pipeline.Window sig grid0 :=
  Pipeline.Window.ofSpec (Memref.whole main_v0) S1x3x68x68.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x3x5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x64x64 : Shape := ⟨4, ![8, 3, 64, 64]⟩
abbrev S64x3x5x5 : Shape := ⟨4, ![64, 3, 5, 5]⟩
abbrev S_ : Shape := ⟨0, ![]⟩
abbrev S8x3x68x68 : Shape := ⟨4, ![8, 3, 68, 68]⟩
abbrev S8x3x1x64x64 : Shape := ⟨5, ![8, 3, 1, 64, 64]⟩
abbrev S8x3x16x64x64 : Shape := ⟨5, ![8, 3, 16, 64, 64]⟩
abbrev S8x3x9x64x64 : Shape := ⟨5, ![8, 3, 9, 64, 64]⟩
abbrev S8x3x25x64x64 : Shape := ⟨5, ![8, 3, 25, 64, 64]⟩
abbrev S8x75x4096 : Shape := ⟨3, ![8, 75, 4096]⟩
abbrev S75x4096x8 : Shape := ⟨3, ![75, 4096, 8]⟩
abbrev S75x32768 : Shape := ⟨2, ![75, 32768]⟩
abbrev S64x75 : Shape := ⟨2, ![64, 75]⟩
abbrev S32768 : Shape := ⟨1, ![32768]⟩
abbrev S64 : Shape := ⟨1, ![64]⟩
abbrev S64x32768 : Shape := ⟨2, ![64, 32768]⟩
abbrev S1x32768 : Shape := ⟨2, ![1, 32768]⟩
abbrev S64x1 : Shape := ⟨2, ![64, 1]⟩
abbrev S64x64x64x8 : Shape := ⟨4, ![64, 64, 64, 8]⟩
abbrev S8x64x64x64 : Shape := ⟨4, ![8, 64, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S8x3x64x64, .f32⟩
  | .hbm, ⟨1, _⟩ => ⟨S64x3x5x5, .f32⟩
  | .hbm, ⟨2, _⟩ => ⟨S_, .i32⟩
  | .hbm, ⟨3, _⟩ => ⟨S_, .f32⟩
  | .hbm, ⟨4, _⟩ => ⟨S8x3x68x68, .f32⟩
  | .hbm, ⟨5, _⟩ => ⟨S8x3x64x64, .f32⟩
  | .hbm, ⟨6, _⟩ => ⟨S8x3x64x64, .f32⟩
  | .hbm, ⟨7, _⟩ => ⟨S8x3x64x64, .f32⟩
  | .hbm, ⟨8, _⟩ => ⟨S8x3x64x64, .f32⟩
  | .hbm, ⟨9, _⟩ => ⟨S8x3x64x64, .f32⟩
  | .hbm, ⟨10, _⟩ => ⟨S8x3x64x64, .f32⟩
  | .hbm, ⟨11, _⟩ => ⟨S8x3x64x64, .f32⟩
  | .hbm, ⟨12, _⟩ => ⟨S8x3x64x64, .f32⟩
  | .hbm, ⟨13, _⟩ => ⟨S8x3x64x64, .f32⟩
  | .hbm, ⟨14, _⟩ => ⟨S8x3x64x64, .f32⟩
  | .hbm, ⟨15, _⟩ => ⟨S8x3x64x64, .f32⟩
  | .hbm, ⟨16, _⟩ => ⟨S8x3x64x64, .f32⟩
  | .hbm, ⟨17, _⟩ => ⟨S8x3x64x64, .f32⟩
  | .hbm, ⟨18, _⟩ => ⟨S8x3x64x64, .f32⟩
  | .hbm, ⟨19, _⟩ => ⟨S8x3x64x64, .f32⟩
  | .hbm, ⟨20, _⟩ => ⟨S8x3x64x64, .f32⟩
  | .hbm, ⟨21, _⟩ => ⟨S8x3x64x64, .f32⟩
  | .hbm, ⟨22, _⟩ => ⟨S8x3x64x64, .f32⟩
  | .hbm, ⟨23, _⟩ => ⟨S8x3x64x64, .f32⟩
  | .hbm, ⟨24, _⟩ => ⟨S8x3x64x64, .f32⟩
  | .hbm, ⟨25, _⟩ => ⟨S8x3x64x64, .f32⟩
  | .hbm, ⟨26, _⟩ => ⟨S8x3x64x64, .f32⟩
  | .hbm, ⟨27, _⟩ => ⟨S8x3x64x64, .f32⟩
  | .hbm, ⟨28, _⟩ => ⟨S8x3x64x64, .f32⟩
  | .hbm, ⟨29, _⟩ => ⟨S8x3x64x64, .f32⟩
  | .hbm, ⟨30, _⟩ => ⟨S8x3x1x64x64, .f32⟩
  | .hbm, ⟨31, _⟩ => ⟨S8x3x1x64x64, .f32⟩
  | .hbm, ⟨32, _⟩ => ⟨S8x3x1x64x64, .f32⟩
  | .hbm, ⟨33, _⟩ => ⟨S8x3x1x64x64, .f32⟩
  | .hbm, ⟨34, _⟩ => ⟨S8x3x1x64x64, .f32⟩
  | .hbm, ⟨35, _⟩ => ⟨S8x3x1x64x64, .f32⟩
  | .hbm, ⟨36, _⟩ => ⟨S8x3x1x64x64, .f32⟩
  | .hbm, ⟨37, _⟩ => ⟨S8x3x1x64x64, .f32⟩
  | .hbm, ⟨38, _⟩ => ⟨S8x3x1x64x64, .f32⟩
  | .hbm, ⟨39, _⟩ => ⟨S8x3x1x64x64, .f32⟩
  | .hbm, ⟨40, _⟩ => ⟨S8x3x1x64x64, .f32⟩
  | .hbm, ⟨41, _⟩ => ⟨S8x3x1x64x64, .f32⟩
  | .hbm, ⟨42, _⟩ => ⟨S8x3x1x64x64, .f32⟩
  | .hbm, ⟨43, _⟩ => ⟨S8x3x1x64x64, .f32⟩
  | .hbm, ⟨44, _⟩ => ⟨S8x3x1x64x64, .f32⟩
  | .hbm, ⟨45, _⟩ => ⟨S8x3x1x64x64, .f32⟩
  | .hbm, ⟨46, _⟩ => ⟨S8x3x1x64x64, .f32⟩
  | .hbm, ⟨47, _⟩ => ⟨S8x3x1x64x64, .f32⟩
  | .hbm, ⟨48, _⟩ => ⟨S8x3x1x64x64, .f32⟩
  | .hbm, ⟨49, _⟩ => ⟨S8x3x1x64x64, .f32⟩
  | .hbm, ⟨50, _⟩ => ⟨S8x3x1x64x64, .f32⟩
  | .hbm, ⟨51, _⟩ => ⟨S8x3x1x64x64, .f32⟩
  | .hbm, ⟨52, _⟩ => ⟨S8x3x1x64x64, .f32⟩
  | .hbm, ⟨53, _⟩ => ⟨S8x3x1x64x64, .f32⟩
  | .hbm, ⟨54, _⟩ => ⟨S8x3x1x64x64, .f32⟩
  | .hbm, ⟨55, _⟩ => ⟨S8x3x16x64x64, .f32⟩
  | .hbm, ⟨56, _⟩ => ⟨S8x3x9x64x64, .f32⟩
  | .hbm, ⟨57, _⟩ => ⟨S8x3x25x64x64, .f32⟩
  | .hbm, ⟨58, _⟩ => ⟨S8x75x4096, .f32⟩
  | .hbm, ⟨59, _⟩ => ⟨S75x4096x8, .f32⟩
  | .hbm, ⟨60, _⟩ => ⟨S75x32768, .f32⟩
  | .hbm, ⟨61, _⟩ => ⟨S64x75, .f32⟩
  | .hbm, ⟨62, _⟩ => ⟨S75x32768, .f32⟩
  | .hbm, ⟨63, _⟩ => ⟨S_, .f32⟩
  | .hbm, ⟨64, _⟩ => ⟨S32768, .f32⟩
  | .hbm, ⟨65, _⟩ => ⟨S64x75, .f32⟩
  | .hbm, ⟨66, _⟩ => ⟨S_, .f32⟩
  | .hbm, ⟨67, _⟩ => ⟨S64, .f32⟩
  | .hbm, ⟨68, _⟩ => ⟨S64x32768, .f32⟩
  | .hbm, ⟨69, _⟩ => ⟨S1x32768, .f32⟩
  | .hbm, ⟨70, _⟩ => ⟨S64x1, .f32⟩
  | .hbm, ⟨71, _⟩ => ⟨S64x32768, .f32⟩
  | .hbm, ⟨72, _⟩ => ⟨S64x32768, .f32⟩
  | .hbm, ⟨73, _⟩ => ⟨S64x32768, .f32⟩
  | .hbm, ⟨74, _⟩ => ⟨S_, .f32⟩
  | .hbm, ⟨75, _⟩ => ⟨S64x32768, .f32⟩
  | .hbm, ⟨76, _⟩ => ⟨S64x32768, .f32⟩
  | .hbm, ⟨77, _⟩ => ⟨S64x32768, .f32⟩
  | .hbm, ⟨78, _⟩ => ⟨S64x64x64x8, .f32⟩
  | .hbm, ⟨79, _⟩ => ⟨S8x64x64x64, .f32⟩
  | _, _ => ⟨S8x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_cst : Ref sig .tc := ⟨.hbm, 63, rfl⟩
abbrev main_v59 : Ref sig .tc := ⟨.hbm, 64, rfl⟩
abbrev main_v60 : Ref sig .tc := ⟨.hbm, 65, rfl⟩
abbrev main_cst_0 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_1 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩

abbrev nD : Nat := 1
abbrev τ : Topo := Topo.v7x

variable {F : FTy → Type} [FloatOps F]

class Facts₀ : Prop where
  pads_S8x3x64x64_S8x3x68x68_000_000_220_220 : S8x3x64x64.Pads (![0, 0, 2, 2] : Fin 4 → Nat) ![0, 0, 2, 2] ![0, 0, 0, 0] S8x3x68x68
  h_S_ : 0 < S_.numel
  slices_S8x3x68x68_S8x3x64x64_0_0_0_0 : S8x3x68x68.Slices ![0, 0, 0, 0] S8x3x64x64
  slices_S8x3x68x68_S8x3x64x64_0_0_0_1 : S8x3x68x68.Slices ![0, 0, 0, 1] S8x3x64x64
  slices_S8x3x68x68_S8x3x64x64_0_0_0_2 : S8x3x68x68.Slices ![0, 0, 0, 2] S8x3x64x64
  slices_S8x3x68x68_S8x3x64x64_0_0_0_3 : S8x3x68x68.Slices ![0, 0, 0, 3] S8x3x64x64
  slices_S8x3x68x68_S8x3x64x64_0_0_0_4 : S8x3x68x68.Slices ![0, 0, 0, 4] S8x3x64x64
  slices_S8x3x68x68_S8x3x64x64_0_0_1_0 : S8x3x68x68.Slices ![0, 0, 1, 0] S8x3x64x64
  slices_S8x3x68x68_S8x3x64x64_0_0_1_1 : S8x3x68x68.Slices ![0, 0, 1, 1] S8x3x64x64
  slices_S8x3x68x68_S8x3x64x64_0_0_1_2 : S8x3x68x68.Slices ![0, 0, 1, 2] S8x3x64x64
  slices_S8x3x68x68_S8x3x64x64_0_0_1_3 : S8x3x68x68.Slices ![0, 0, 1, 3] S8x3x64x64
  slices_S8x3x68x68_S8x3x64x64_0_0_1_4 : S8x3x68x68.Slices ![0, 0, 1, 4] S8x3x64x64
  slices_S8x3x68x68_S8x3x64x64_0_0_2_0 : S8x3x68x68.Slices ![0, 0, 2, 0] S8x3x64x64
  slices_S8x3x68x68_S8x3x64x64_0_0_2_1 : S8x3x68x68.Slices ![0, 0, 2, 1] S8x3x64x64
  slices_S8x3x68x68_S8x3x64x64_0_0_2_2 : S8x3x68x68.Slices ![0, 0, 2, 2] S8x3x64x64
  slices_S8x3x68x68_S8x3x64x64_0_0_2_3 : S8x3x68x68.Slices ![0, 0, 2, 3] S8x3x64x64
  slices_S8x3x68x68_S8x3x64x64_0_0_2_4 : S8x3x68x68.Slices ![0, 0, 2, 4] S8x3x64x64
  slices_S8x3x68x68_S8x3x64x64_0_0_3_0 : S8x3x68x68.Slices ![0, 0, 3, 0] S8x3x64x64
  slices_S8x3x68x68_S8x3x64x64_0_0_3_1 : S8x3x68x68.Slices ![0, 0, 3, 1] S8x3x64x64
  slices_S8x3x68x68_S8x3x64x64_0_0_3_2 : S8x3x68x68.Slices ![0, 0, 3, 2] S8x3x64x64
  slices_S8x3x68x68_S8x3x64x64_0_0_3_3 : S8x3x68x68.Slices ![0, 0, 3, 3] S8x3x64x64
  slices_S8x3x68x68_S8x3x64x64_0_0_3_4 : S8x3x68x68.Slices ![0, 0, 3, 4] S8x3x64x64
  slices_S8x3x68x68_S8x3x64x64_0_0_4_0 : S8x3x68x68.Slices ![0, 0, 4, 0] S8x3x64x64
  slices_S8x3x68x68_S8x3x64x64_0_0_4_1 : S8x3x68x68.Slices ![0, 0, 4, 1] S8x3x64x64
  slices_S8x3x68x68_S8x3x64x64_0_0_4_2 : S8x3x68x68.Slices ![0, 0, 4, 2] S8x3x64x64
  slices_S8x3x68x68_S8x3x64x64_0_0_4_3 : S8x3x68x68.Slices ![0, 0, 4, 3] S8x3x64x64
  slices_S8x3x68x68_S8x3x64x64_0_0_4_4 : S8x3x68x68.Slices ![0, 0, 4, 4] S8x3x64x64
  bcast_S8x3x64x64_S8x3x1x64x64_0_1_3_4 : S8x3x64x64.BroadcastsInDim S8x3x1x64x64 (![0, 1, 3, 4] : Fin 4 → Fin S8x3x1x64x64.rank)
  concatenates_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x1x64x64_S8x3x16x64x64_d2 : Shape.Concatenates [S8x3x1x64x64, S8x3x1x64x64, S8x3x1x64x64, S8x3x1x64x64, S8x3x1x64x64, S8x3x1x64x64, S8x3x1x64x64, S8x3x1x64x64, S8x3x1x64x64, S8x3x1x64x64, S8x3x1x64x64, S8x3x1x64x64, S8x3x1x64x64, S8x3x1x64x64, S8x3x1x64x64, S8x3x1x64x64] S8x3x16x64x64 2
  concatenates_S8x3x1x64x64_S8x3x1x64x64_S8x3x1x64x64_S8x3x1x64x64_S8x3x1x64x64_S8x3x1x64x64_S8x3x1x64x64_S8x3x1x64x64_S8x3x1x64x64_S8x3x9x64x64_d2 : Shape.Concatenates [S8x3x1x64x64, S8x3x1x64x64, S8x3x1x64x64, S8x3x1x64x64, S8x3x1x64x64, S8x3x1x64x64, S8x3x1x64x64, S8x3x1x64x64, S8x3x1x64x64] S8x3x9x64x64 2
  concatenates_S8x3x16x64x64_S8x3x9x64x64_S8x3x25x64x64_d2 : Shape.Concatenates [S8x3x16x64x64, S8x3x9x64x64] S8x3x25x64x64 2
  shapeCasts_S8x3x25x64x64_S8x75x4096 : S8x3x25x64x64.ShapeCasts S8x75x4096
  transposes_S8x75x4096_S75x4096x8_1_2_0 : S8x75x4096.Transposes [1, 2, 0] S75x4096x8
  shapeCasts_S75x4096x8_S75x32768 : S75x4096x8.ShapeCasts S75x32768
  shapeCasts_S64x3x5x5_S64x75 : S64x3x5x5.ShapeCasts S64x75
  reducesTo_S75x32768_S32768_d0 : S75x32768.ReducesTo [0] S32768
  reducesTo_S64x75_S64_d1 : S64x75.ReducesTo [1] S64
  bcast_S32768_S1x32768_1 : S32768.BroadcastsInDim S1x32768 (![1] : Fin 1 → Fin S1x32768.rank)
  bcast_S64_S64x1_0 : S64.BroadcastsInDim S64x1 (![0] : Fin 1 → Fin S64x1.rank)
  bcast_S1x32768_S64x32768_0_1 : S1x32768.BroadcastsInDim S64x32768 (![0, 1] : Fin 2 → Fin S64x32768.rank)
  bcast_S64x1_S64x32768_0_1 : S64x1.BroadcastsInDim S64x32768 (![0, 1] : Fin 2 → Fin S64x32768.rank)
  bcast_S_S64x32768 : S_.BroadcastsInDim S64x32768 (![] : Fin 0 → Fin S64x32768.rank)
  shapeCasts_S64x32768_S64x64x64x8 : S64x32768.ShapeCasts S64x64x64x8
  transposes_S64x64x64x8_S8x64x64x64_3_0_1_2 : S64x64x64x8.Transposes [3, 0, 1, 2] S8x64x64x64
  dot_S64x75_S75x32768_S64x32768_1_0_0_1_n_n_wf : DotDims.WF S64x75 S75x32768 S64x32768 [1] [0] [0] [1] [] []

variable [Facts₀]

def dot_S64x75_S75x32768_S64x32768_1_0_0_1_n_n : DotDims S64x75 S75x32768 S64x32768 where
  lhsContracting := [1]
  rhsContracting := [0]
  lhsNonContracting := [0]
  rhsNonContracting := [1]
  lhsBatch := []
  rhsBatch := []
  wf := dot_S64x75_S75x32768_S64x32768_1_0_0_1_n_n_wf

class Facts : Prop extends Facts₀ where

variable [Facts]
-- ==== Proof.Spec.lean ====
/-
  The value both programs compute, as one function of the padded image array and the filter bank.

  An image n has three channels of 68 × 68 entries (a 64 × 64 picture with a border of width two). A FEATURE d < 75 names a
  channel and an offset inside the 5 × 5 stencil: channel d / 25, stencil row (d mod 25) / 5, stencil column d mod 5. The
  PATCH of image n at the output position (h, w) is the vector, over the 75 features, of the entry of that channel at row
  (stencil row + h) and column (stencil column + w); filter f, laid out in the same feature order, is a vector of the same
  length. The result at (n, f, h, w) is

      ⟨filter f, patch⟩ − ½ · (‖patch‖² + ‖filter f‖²),

  which is −½ ‖patch − filter f‖² wherever that expansion is allowed. Nothing here expands it: both programs compute the
  three sums as they stand, over the same 75 features, so the result is stated in that form and no entry has to be finite.
-/
import Idealize.ShloMosaic.Lib.ValueIdx
import Idealize.ShloMosaic.PureOps.Ideal

noncomputable section

namespace DistanceConv

open Idealize.ShloMosaic Idealize.ShloMosaic.ValueIdx

/-- The channel of feature d. -/
def chan (d : Fin 75) : Fin 3 := ⟨d.val / 25, by have := d.isLt; omega⟩
/-- The stencil row of feature d. -/
def srow (d : Fin 75) : Fin 5 := ⟨d.val % 25 / 5, by have := d.isLt; omega⟩
/-- The stencil column of feature d. -/
def scol (d : Fin 75) : Fin 5 := ⟨d.val % 5, Nat.mod_lt _ (by decide)⟩

theorem chan_val (d : Fin 75) : (chan d).val = d.val / 25 := rfl
theorem srow_val (d : Fin 75) : (srow d).val = d.val % 25 / 5 := rfl
theorem scol_val (d : Fin 75) : (scol d).val = d.val % 5 := rfl

/-- Entry d of the patch of image n at output position (h, w), read off the padded array. -/
def patch (xp : (⟨4, ![8, 3, 68, 68]⟩ : Shape).Idx → EReal) (n : Fin 8) (d : Fin 75) (h w : Fin 64) : EReal :=
  xp (ix4 n (chan d) ⟨(srow d).val + h.val, by have := (srow d).isLt; have := h.isLt; omega⟩
    ⟨(scol d).val + w.val, by have := (scol d).isLt; have := w.isLt; omega⟩)

/-- Entry d of filter f. -/
def filt (W : (⟨4, ![64, 3, 5, 5]⟩ : Shape).Idx → EReal) (f : Fin 64) (d : Fin 75) : EReal :=
  W (ix4 f (chan d) (srow d) (scol d))

/-- The padded array: every 64 × 64 channel of the input set in a border of two zeros on each side, as both programs'
    host code pads it (the border value is the integer zero converted to a float). -/
def padded (x : (⟨4, ![8, 3, 64, 64]⟩ : Shape).Idx → EReal) : (⟨4, ![8, 3, 68, 68]⟩ : Shape).Idx → EReal :=
  pad ⟨4, ![8, 3, 68, 68]⟩ ![0, 0, 2, 2] ![0, 0, 2, 2] ![0, 0, 0, 0] x
    (sitofp (F := Ideal) .f32 (constantI ⟨0, ![]⟩ 32 0#32)) (by decide) (by decide)

/-- The weight one half, as both programs spell it. -/
def half : EReal := Ideal.ofBits .f32 0x3F000000#32

/-- The result at image n, filter f, output position (h, w). -/
def resultAt (xp : (⟨4, ![8, 3, 68, 68]⟩ : Shape).Idx → EReal) (W : (⟨4, ![64, 3, 5, 5]⟩ : Shape).Idx → EReal)
    (n : Fin 8) (f : Fin 64) (h w : Fin 64) : EReal :=
  (∑ d : Fin 75, filt W f d * patch xp n d h w)
    - half * ((∑ d : Fin 75, patch xp n d h w * patch xp n d h w) + ∑ d : Fin 75, filt W f d * filt W f d)

/-- The whole result array. -/
def result (xp : (⟨4, ![8, 3, 68, 68]⟩ : Shape).Idx → EReal) (W : (⟨4, ![64, 3, 5, 5]⟩ : Shape).Idx → EReal) :
    (⟨4, ![8, 64, 64, 64]⟩ : Shape).Idx → EReal :=
  fun j => resultAt xp W (j 0) (j 1) (j 2) (j 3)

theorem result_apply (xp : (⟨4, ![8, 3, 68, 68]⟩ : Shape).Idx → EReal) (W : (⟨4, ![64, 3, 5, 5]⟩ : Shape).Idx → EReal)
    (n : Fin 8) (f : Fin 64) (h w : Fin 64) : result xp W (ix4 n f h w) = resultAt xp W n f h w := rfl

end DistanceConv

end
-- ==== Proof.Patches.lean ====
/-
  The two programs' patch matrices, read at an entry.

  Both programs lay the 75 features of every patch out as the rows of a matrix whose columns are the output positions, and
  both do it by cutting shifted 64 × 64 windows out of the padded image and stacking them.

  The kernel works on one image, a 3 × 68 × 68 array: for each feature d it cuts the window at (channel d, stencil row d,
  stencil column d), stacks the 75 windows along a new leading axis and flattens each window to a row of 4096 entries.
  Row d, column 64 h + w of that matrix is the image's entry at channel d, row (stencil row d + h), column (stencil column d + w)
  (`imageCols_apply`).

  The reference works on all eight images at once: for each of the 25 stencil offsets k it cuts the 8 × 3 × 64 × 64 window
  at row offset k / 5 and column offset k mod 5 of every channel, stacks the 25 windows along a new axis behind the channel
  axis (the first 16, then the last 9, then the two stacks end to end) and reads channel and offset together as one axis of
  length 75. Entry (n, c, k, h, w) of the stack is entry (n, c, k / 5 + h, k mod 5 + w) of the padded array (`stack_apply`).
-/
import Idealize.ShloMosaic.Lib.Pipeline.Value
import Idealize.ShloMosaic.Lib.ValueIdx
import proofs.«111551_j49606872269313_1_alg».proof.Proof.Spec

noncomputable section

namespace DistanceConv

open Idealize.ShloMosaic Idealize.ShloMosaic.ValueIdx

variable {α : Type}

/-! ## One image: the kernel's windows -/

/-- Every stencil offset leaves room for a 64 × 64 window inside its 68 × 68 channel. -/
theorem window_fits (d : Fin 75) :
    (⟨3, ![3, 68, 68]⟩ : Shape).Slices ![d.val / 25, d.val % 25 / 5, d.val % 5] ⟨3, ![1, 64, 64]⟩ :=
  ⟨rfl, fun a => by
    have hd := d.isLt
    match a with
    | ⟨0, _⟩ => show d.val / 25 + 1 ≤ 3; omega
    | ⟨1, _⟩ => show d.val % 25 / 5 + 64 ≤ 68; omega
    | ⟨2, _⟩ => show d.val % 5 + 64 ≤ 68; omega⟩

/-- The window of feature d, as the kernel forms it: cut out with its unit channel axis, that axis dropped, and put back. -/
def window (v : (⟨3, ![3, 68, 68]⟩ : Shape).Idx → α) (d : Fin 75) : (⟨3, ![1, 64, 64]⟩ : Shape).Idx → α :=
  shapeCast ⟨3, ![1, 64, 64]⟩
    (shapeCast ⟨2, ![64, 64]⟩
      (extractStridedSlice ⟨3, ![1, 64, 64]⟩ ![d.val / 25, d.val % 25 / 5, d.val % 5] v (window_fits d)) (by decide))
    (by decide)

/-- Entry (h, w) of the window of feature d is the image's entry at that feature's channel, h rows below its stencil row
    and w columns right of its stencil column. -/
theorem window_apply (v : (⟨3, ![3, 68, 68]⟩ : Shape).Idx → α) (d : Fin 75) (u : Fin 1) (h w : Fin 64) :
    window v d (ix3 u h w)
      = v (ix3 (chan d) ⟨(srow d).val + h.val, by have := (srow d).isLt; have := h.isLt; omega⟩
          ⟨(scol d).val + w.val, by have := (scol d).isLt; have := w.isLt; omega⟩) := by
  have e1 : ((⟨2, ![64, 64]⟩ : Shape).rowMajor (ix2 h w)).val = ((⟨3, ![1, 64, 64]⟩ : Shape).rowMajor (ix3 u h w)).val := by
    rw [Shape.rowMajor_val_two, Shape.rowMajor_val_three]
    show h.val * 64 + w.val = (u.val * 64 + h.val) * 64 + w.val
    have := u.isLt; omega
  have e2 : ((⟨3, ![1, 64, 64]⟩ : Shape).rowMajor (ix3 (0 : Fin 1) h w)).val = ((⟨2, ![64, 64]⟩ : Shape).rowMajor (ix2 h w)).val := by
    rw [Shape.rowMajor_val_two, Shape.rowMajor_val_three]
    show (0 * 64 + h.val) * 64 + w.val = h.val * 64 + w.val
    omega
  unfold window
  rw [shapeCast_apply _ _ _ _ e1, shapeCast_apply _ _ _ _ e2]
  exact extractStridedSlice_apply _ v _ _ _ (fun a => by
    match a with
    | ⟨0, _⟩ => rfl
    | ⟨1, _⟩ => rfl
    | ⟨2, _⟩ => rfl)

/-- Seventy-five arrays of shape 1 × 64 × 64 stack along the leading axis to 75 × 64 × 64; in particular the 75 windows do. -/
theorem stack75 : Shape.Concatenates (List.replicate 75 (⟨3, ![1, 64, 64]⟩ : Shape)) ⟨3, ![75, 64, 64]⟩ 0 := by decide

theorem windows_stack (v : (⟨3, ![3, 68, 68]⟩ : Shape).Idx → α) :
    Shape.Concatenates ((List.ofFn fun d : Fin 75 =>
      (⟨⟨3, ![1, 64, 64]⟩, window v d⟩ : (s : Shape) × (s.Idx → α))).map (·.1)) ⟨3, ![75, 64, 64]⟩ 0 := stack75

/-- The 75 windows stacked and each flattened to a row: row d, column 64 h + w is the image's entry for feature d at (h, w). -/
theorem imageCols_apply (v : (⟨3, ![3, 68, 68]⟩ : Shape).Idx → α)
    (hc : Shape.Concatenates ((List.ofFn fun d : Fin 75 =>
      (⟨⟨3, ![1, 64, 64]⟩, window v d⟩ : (s : Shape) × (s.Idx → α))).map (·.1)) ⟨3, ![75, 64, 64]⟩ 0)
    (hs : (⟨3, ![75, 64, 64]⟩ : Shape).ShapeCasts ⟨2, ![75, 4096]⟩) (d : Fin 75) (h w : Fin 64) :
    shapeCast ⟨2, ![75, 4096]⟩ (concatenate ⟨3, ![75, 64, 64]⟩ 0 (List.ofFn fun d : Fin 75 =>
        (⟨⟨3, ![1, 64, 64]⟩, window v d⟩ : (s : Shape) × (s.Idx → α))) hc) hs
        (ix2 d ⟨h.val * 64 + w.val, by have := h.isLt; have := w.isLt; omega⟩)
      = v (ix3 (chan d) ⟨(srow d).val + h.val, by have := (srow d).isLt; have := h.isLt; omega⟩
          ⟨(scol d).val + w.val, by have := (scol d).isLt; have := w.isLt; omega⟩) := by
  have e : ((⟨3, ![75, 64, 64]⟩ : Shape).rowMajor (ix3 d h w)).val
      = ((⟨2, ![75, 4096]⟩ : Shape).rowMajor (ix2 d (⟨h.val * 64 + w.val, by have := h.isLt; have := w.isLt; omega⟩ : Fin 4096))).val := by
    rw [Shape.rowMajor_val_two, Shape.rowMajor_val_three]
    show (d.val * 64 + h.val) * 64 + w.val = d.val * 4096 + (h.val * 64 + w.val)
    omega
  rw [shapeCast_apply _ _ _ _ e, ← window_apply v d 0 h w]
  exact concatenate_ofFn_unit_apply 0 _ hc rfl rfl (ix3 d h w) d rfl (ix3 0 h w) (fun b hb => by
    match b with
    | ⟨0, _⟩ => exact absurd rfl hb
    | ⟨1, _⟩ => rfl
    | ⟨2, _⟩ => rfl)

end DistanceConv

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Scores.lean ====
/-
  The arithmetic both programs do on a filter matrix and a patch matrix, read at an entry.

  A is the 64 × 75 matrix of filters (one row a filter, one column a feature) and B a 75 × P matrix of patches (one column
  an output position). Both programs form, for filter f and column p,

      score A B f p = Σ_c A(f, c) · B(c, p) − ½ · (Σ_c B(c, p)² + Σ_c A(f, c)²):

  the matrix product, the column sums of the squares of B, the row sums of the squares of A, the two sums spread over the
  rows and the columns of the product, added, halved and subtracted. The kernel does it on vectors (a matrix-unit product
  into a zero block, lane sums with no starting value, shape casts and broadcasts of the two sum vectors), then reads the
  columns as 64 × 64 positions; the host does it with a dot_general, sums that start from a zero scalar, and
  broadcast_in_dim. At the ideal values each is `score`: the zero starting values add nothing, and the sums are plain
  finite sums over the 75 features. No step here uses that an entry is finite.
-/
import Idealize.ShloMosaic.PureOps.Ideal.Laws
import Idealize.ShloMosaic.Lib.Pipeline.Value
import Idealize.ShloMosaic.Lib.ValueIdx
import proofs.«111551_j49606872269313_1_alg».proof.Proof.LibKeepdims
import proofs.«111551_j49606872269313_1_alg».proof.Proof.LibSideBySide
import proofs.«111551_j49606872269313_1_alg».proof.Proof.Spec

noncomputable section

namespace DistanceConv

open Idealize.ShloMosaic Idealize.ShloMosaic.ValueIdx

/-- The inner product of filter f with column p, less half the sum of their squared lengths. -/
def score {P : Nat} (A : (⟨2, ![64, 75]⟩ : Shape).Idx → EReal) (B : (⟨2, ![75, P]⟩ : Shape).Idx → EReal) (f : Fin 64) (p : Fin P) :
    EReal :=
  (∑ c : Fin 75, A (ix2 f c) * B (ix2 c p))
    - half * ((∑ c : Fin 75, B (ix2 c p) * B (ix2 c p)) + ∑ c : Fin 75, A (ix2 f c) * A (ix2 f c))

/-- A lane sum down the 75 rows of a 75 × P matrix, with no starting value, at column p. -/
theorem columnSums_apply {P : Nat} (X : FVec Ideal ⟨2, ![75, P]⟩ .f32)
    (hr : (⟨2, ![75, P]⟩ : Shape).Reduces [0] ⟨1, ![P]⟩) (hφ : FKind.Formats FTy.f32)
    (hacc : (0x00000000#32 : BitVec FTy.f32.bits) = FKind.add.neutral .f32 hφ) (p : Fin P) :
    multiReduction .add [0] ⟨1, ![P]⟩ X 0x00000000#32 hr hφ hacc (ix1 p) = ∑ c : Fin 75, X (ix2 c p) := by
  refine (Ideal.multiReduction_add_single X 0x00000000#32 hr hφ hacc (ix1 p)).trans ?_
  refine Finset.sum_congr rfl fun c _ => ?_
  exact congrArg X (funext fun a => Fin.ext (by match a with | ⟨0, _⟩ => rfl | ⟨1, _⟩ => rfl))

/-- A lane sum along the 75 columns of a 64 × 75 matrix, with no starting value, at row f. -/
theorem rowSums_apply (X : FVec Ideal ⟨2, ![64, 75]⟩ .f32)
    (hr : (⟨2, ![64, 75]⟩ : Shape).Reduces [1] ⟨1, ![64]⟩) (hφ : FKind.Formats FTy.f32)
    (hacc : (0x00000000#32 : BitVec FTy.f32.bits) = FKind.add.neutral .f32 hφ) (f : Fin 64) :
    multiReduction .add [1] ⟨1, ![64]⟩ X 0x00000000#32 hr hφ hacc (ix1 f) = ∑ c : Fin 75, X (ix2 f c) := by
  refine (Ideal.multiReduction_add_single X 0x00000000#32 hr hφ hacc (ix1 f)).trans ?_
  refine Finset.sum_congr rfl fun c _ => ?_
  exact congrArg X (funext fun a => Fin.ext (by match a with | ⟨0, _⟩ => rfl | ⟨1, _⟩ => rfl))

/-- The kernel's arithmetic on a filter matrix and one image's patch matrix, the 4096 columns read back as 64 × 64 positions
    behind a unit axis: at (·, f, h, w) it is the score of filter f and column 64 h + w. -/
theorem kernelScores_apply (A : FVec Ideal ⟨2, ![64, 75]⟩ .f32) (B : FVec Ideal ⟨2, ![75, 4096]⟩ .f32)
    (dd : DotDims ⟨2, ![64, 75]⟩ ⟨2, ![75, 4096]⟩ ⟨2, ![64, 4096]⟩) (hd : dd = DotDims.plain 64 75 4096)
    (hr0 : (⟨2, ![75, 4096]⟩ : Shape).Reduces [0] ⟨1, ![4096]⟩) (hr1 : (⟨2, ![64, 75]⟩ : Shape).Reduces [1] ⟨1, ![64]⟩)
    (hφ : FKind.Formats FTy.f32) (hacc : (0x00000000#32 : BitVec FTy.f32.bits) = FKind.add.neutral .f32 hφ)
    (hc1 : (⟨1, ![4096]⟩ : Shape).ShapeCasts ⟨2, ![1, 4096]⟩) (hc2 : (⟨1, ![64]⟩ : Shape).ShapeCasts ⟨2, ![64, 1]⟩)
    (hb1 : (⟨2, ![1, 4096]⟩ : Shape).Broadcasts ⟨2, ![64, 4096]⟩) (hb2 : (⟨2, ![64, 1]⟩ : Shape).Broadcasts ⟨2, ![64, 4096]⟩)
    (hc3 : (⟨2, ![64, 4096]⟩ : Shape).ShapeCasts ⟨3, ![64, 64, 64]⟩)
    (hc4 : (⟨3, ![64, 64, 64]⟩ : Shape).ShapeCasts ⟨4, ![1, 64, 64, 64]⟩)
    (u : Fin 1) (f h w : Fin 64) :
    shapeCast ⟨4, ![1, 64, 64, 64]⟩ (shapeCast ⟨3, ![64, 64, 64]⟩
      (subf (matmul dd none A B (constant (F := Ideal) ⟨2, ![64, 4096]⟩ .f32 0x00000000#32))
        (mulf (broadcast ⟨2, ![64, 4096]⟩ (Scalar.ofBits (F := Ideal) .f32 0x3F000000#32))
          (addf
            (broadcastTo ⟨2, ![64, 4096]⟩ (shapeCast ⟨2, ![1, 4096]⟩
              (multiReduction .add [0] ⟨1, ![4096]⟩ (mulf B B) 0x00000000#32 hr0 hφ hacc) hc1) hb1)
            (broadcastTo ⟨2, ![64, 4096]⟩ (shapeCast ⟨2, ![64, 1]⟩
              (multiReduction .add [1] ⟨1, ![64]⟩ (mulf A A) 0x00000000#32 hr1 hφ hacc) hc2) hb2)))) hc3) hc4 (ix4 u f h w)
      = score A B f (⟨h.val * 64 + w.val, by have := h.isLt; have := w.isLt; omega⟩ : Fin 4096) := by
  have e4 : ((⟨3, ![64, 64, 64]⟩ : Shape).rowMajor (ix3 f h w)).val = ((⟨4, ![1, 64, 64, 64]⟩ : Shape).rowMajor (ix4 u f h w)).val := by
    rw [Shape.rowMajor_val_three, Shape.rowMajor_val_four]
    show (f.val * 64 + h.val) * 64 + w.val = ((u.val * 64 + f.val) * 64 + h.val) * 64 + w.val
    have := u.isLt; omega
  have e3 : ((⟨2, ![64, 4096]⟩ : Shape).rowMajor (ix2 f (⟨h.val * 64 + w.val, by have := h.isLt; have := w.isLt; omega⟩ : Fin 4096))).val
      = ((⟨3, ![64, 64, 64]⟩ : Shape).rowMajor (ix3 f h w)).val := by
    rw [Shape.rowMajor_val_two, Shape.rowMajor_val_three]
    show f.val * 4096 + (h.val * 64 + w.val) = (f.val * 64 + h.val) * 64 + w.val
    omega
  have e1 : ((⟨1, ![4096]⟩ : Shape).rowMajor (ix1 (⟨h.val * 64 + w.val, by have := h.isLt; have := w.isLt; omega⟩ : Fin 4096))).val
      = ((⟨2, ![1, 4096]⟩ : Shape).rowMajor (ix2 (0 : Fin 1) (⟨h.val * 64 + w.val, by have := h.isLt; have := w.isLt; omega⟩ : Fin 4096))).val := by
    rw [Shape.rowMajor_val_two, Shape.rowMajor_val_one]
    show h.val * 64 + w.val = 0 * 4096 + (h.val * 64 + w.val)
    omega
  rw [shapeCast_apply _ hc4 _ _ e4, shapeCast_apply _ hc3 _ _ e3]
  rw [subf_apply, mulf_apply, addf_apply, broadcast_apply]
  rw [SideBySide.kernelProduct_apply dd hd none A B f _]
  rw [broadcastTo_apply _ hb1 _ (ix2 (0 : Fin 1) (⟨h.val * 64 + w.val, by have := h.isLt; have := w.isLt; omega⟩ : Fin 4096)) (fun a => by
    match a with
    | ⟨0, _⟩ => rfl
    | ⟨1, _⟩ => rfl)]
  rw [shapeCast_apply _ hc1 _ _ e1, broadcastTo_a1_ab_apply, shapeCast_a_a1_apply]
  rw [columnSums_apply, rowSums_apply]
  rfl

/-- The host's sum down the 75 rows of a 75 × P matrix, started from a scalar, at column p. -/
theorem hostColumnSums_apply {P : Nat} (X : FVec Ideal ⟨2, ![75, P]⟩ .f32) (init : (⟨0, ![]⟩ : Shape).Idx → Ideal .f32)
    (hr : (⟨2, ![75, P]⟩ : Shape).ReducesTo [0] ⟨1, ![P]⟩) (hr' : (⟨2, ![75, P]⟩ : Shape).Reduces [0] ⟨1, ![P]⟩)
    (hu : 0 < (⟨0, ![]⟩ : Shape).numel) (p : Fin P) :
    Host.reduceAdd X init hr hu (ix1 p) = init (Shape.Idx.first hu) + ∑ c : Fin 75, X (ix2 c p) := by
  simp only [Host.reduceAdd, Ideal.hostReduceAdd_def]
  rw [Ideal.hostReduceAdd_single hr hr']
  refine congrArg (_ + ·) (Finset.sum_congr rfl fun c _ => ?_)
  exact congrArg X (funext fun a => Fin.ext (by match a with | ⟨0, _⟩ => rfl | ⟨1, _⟩ => rfl))

/-- The host's sum along the 75 columns of a 64 × 75 matrix, started from a scalar, at row f. -/
theorem hostRowSums_apply (X : FVec Ideal ⟨2, ![64, 75]⟩ .f32) (init : (⟨0, ![]⟩ : Shape).Idx → Ideal .f32)
    (hr : (⟨2, ![64, 75]⟩ : Shape).ReducesTo [1] ⟨1, ![64]⟩) (hu : 0 < (⟨0, ![]⟩ : Shape).numel) (f : Fin 64) :
    Host.reduceAdd X init hr hu (ix1 f) = init (Shape.Idx.first hu) + ∑ c : Fin 75, X (ix2 f c) := by
  simp only [Host.reduceAdd, Ideal.hostReduceAdd_def]
  rw [Ideal.hostReduceAdd_single hr (by decide)]
  refine congrArg (_ + ·) (Finset.sum_congr rfl fun c _ => ?_)
  exact congrArg X (funext fun a => Fin.ext (by match a with | ⟨0, _⟩ => rfl | ⟨1, _⟩ => rfl))

/-- The host's arithmetic on the filter matrix and the patch matrix of all eight images (32768 columns): at (f, m) it is
    the score of filter f and column m. -/
theorem hostScores_apply (A : FVec Ideal ⟨2, ![64, 75]⟩ .f32) (B : FVec Ideal ⟨2, ![75, 32768]⟩ .f32)
    (dd : DotDims ⟨2, ![64, 75]⟩ ⟨2, ![75, 32768]⟩ ⟨2, ![64, 32768]⟩) (hd : dd = DotDims.plain 64 75 32768)
    (hr0 : (⟨2, ![75, 32768]⟩ : Shape).ReducesTo [0] ⟨1, ![32768]⟩) (hr1 : (⟨2, ![64, 75]⟩ : Shape).ReducesTo [1] ⟨1, ![64]⟩)
    (hu : 0 < (⟨0, ![]⟩ : Shape).numel)
    (hb0 : (⟨0, ![]⟩ : Shape).BroadcastsInDim ⟨2, ![64, 32768]⟩ ![])
    (hbB : (⟨1, ![32768]⟩ : Shape).BroadcastsInDim ⟨2, ![1, 32768]⟩ ![1])
    (hbA : (⟨2, ![1, 32768]⟩ : Shape).BroadcastsInDim ⟨2, ![64, 32768]⟩ ![0, 1])
    (hbD : (⟨1, ![64]⟩ : Shape).BroadcastsInDim ⟨2, ![64, 1]⟩ ![0])
    (hbC : (⟨2, ![64, 1]⟩ : Shape).BroadcastsInDim ⟨2, ![64, 32768]⟩ ![0, 1])
    (f : Fin 64) (m : Fin 32768) :
    subf (Host.dotGeneral dd none A B)
      (mulf (broadcastInDim ⟨2, ![64, 32768]⟩ ![] hb0 (constant (F := Ideal) ⟨0, ![]⟩ .f32 0x3F000000#32))
        (addf
          (broadcastInDim ⟨2, ![64, 32768]⟩ ![0, 1] hbA (broadcastInDim ⟨2, ![1, 32768]⟩ ![1] hbB
            (Host.reduceAdd (mulf B B) (constant (F := Ideal) ⟨0, ![]⟩ .f32 0x00000000#32) hr0 hu)))
          (broadcastInDim ⟨2, ![64, 32768]⟩ ![0, 1] hbC (broadcastInDim ⟨2, ![64, 1]⟩ ![0] hbD
            (Host.reduceAdd (mulf A A) (constant (F := Ideal) ⟨0, ![]⟩ .f32 0x00000000#32) hr1 hu))))) (ix2 f m)
      = score A B f m := by
  rw [subf_apply, mulf_apply, addf_apply]
  rw [SideBySide.hostProduct_apply dd hd none A B f m]
  rw [broadcastInDim_apply _ hb0 _ (ix2 f m) ix0 (fun a => a.elim0)]
  rw [broadcastInDim_apply _ hbA _ (ix2 f m) (ix2 (0 : Fin 1) m) (fun a => by
    match a with
    | ⟨0, _⟩ => rfl
    | ⟨1, _⟩ => rfl)]
  rw [broadcastInDim_apply _ hbB _ (ix2 (0 : Fin 1) m) (ix1 m) (fun a => by
    match a with
    | ⟨0, _⟩ => rfl)]
  rw [broadcastInDim_apply _ hbC _ (ix2 f m) (ix2 f (0 : Fin 1)) (fun a => by
    match a with
    | ⟨0, _⟩ => rfl
    | ⟨1, _⟩ => rfl)]
  rw [broadcastInDim_apply _ hbD _ (ix2 f (0 : Fin 1)) (ix1 f) (fun a => by
    match a with
    | ⟨0, _⟩ => rfl)]
  rw [hostColumnSums_apply _ _ hr0 (by decide) hu m, hostRowSums_apply _ _ hr1 hu f]
  rw [constant_apply, constant_apply, Ideal.ofBits_zero_f32, zero_add, zero_add]
  rfl

end DistanceConv

end
-- ==== Proof.Layout.lean ====
/-
  How the two programs order rows and columns.

  The filter bank, 64 × 3 × 5 × 5, read as a 64 × 75 matrix: column d of row f is the filter's entry at channel d / 25,
  stencil row (d mod 25) / 5, stencil column d mod 5 (`filterMatrix_apply`).

  The reference lines up ALL images' output positions as the columns of one matrix: it reads its 8 × 3 × 25 × 64 × 64 stack
  as 8 × 75 × 4096 (feature 25 c + k, position 64 h + w), moves the image axis last, 75 × 4096 × 8, and reads that as
  75 × 32768, so that column (64 h + w) · 8 + n holds image n at position (h, w) (`allColumns_apply`). The scores come out
  in the same column order; the reference reads the 64 × 32768 score matrix as 64 × 64 × 64 × 8 and moves the image axis
  first (`imagesFirst_apply`).
-/
import Idealize.ShloMosaic.Lib.Pipeline.Value
import Idealize.ShloMosaic.Lib.ValueIdx
import proofs.«111551_j49606872269313_1_alg».proof.Proof.Spec

noncomputable section

namespace DistanceConv

open Idealize.ShloMosaic Idealize.ShloMosaic.ValueIdx

variable {α : Type}

/-- Column (64 h + w) · 8 + n: position (h, w) of image n among the reference's 32768 columns. -/
def column (n : Fin 8) (h w : Fin 64) : Fin 32768 :=
  ⟨(h.val * 64 + w.val) * 8 + n.val, by have := n.isLt; have := h.isLt; have := w.isLt; omega⟩

/-- Position 64 h + w among one image's 4096 columns. -/
def position (h w : Fin 64) : Fin 4096 := ⟨h.val * 64 + w.val, by have := h.isLt; have := w.isLt; omega⟩

/-- The filter bank as a matrix of 75-feature rows. -/
theorem filterMatrix_apply (W : (⟨4, ![64, 3, 5, 5]⟩ : Shape).Idx → α)
    (hc : (⟨4, ![64, 3, 5, 5]⟩ : Shape).ShapeCasts ⟨2, ![64, 75]⟩) (f : Fin 64) (d : Fin 75) :
    shapeCast ⟨2, ![64, 75]⟩ W hc (ix2 f d) = W (ix4 f (chan d) (srow d) (scol d)) :=
  shapeCast_apply W hc _ _ (by
    rw [Shape.rowMajor_val_two, Shape.rowMajor_val_four]
    show ((f.val * 3 + d.val / 25) * 5 + d.val % 25 / 5) * 5 + d.val % 5 = f.val * 75 + d.val
    omega)

/-- The reference's patch matrix of all images: row d, column (64 h + w) · 8 + n is the stack's entry for image n, the
    channel and the stencil offset of feature d, and position (h, w). -/
theorem allColumns_apply (S : (⟨5, ![8, 3, 25, 64, 64]⟩ : Shape).Idx → α)
    (hc1 : (⟨5, ![8, 3, 25, 64, 64]⟩ : Shape).ShapeCasts ⟨3, ![8, 75, 4096]⟩)
    (ht : (⟨3, ![8, 75, 4096]⟩ : Shape).Transposes [1, 2, 0] ⟨3, ![75, 4096, 8]⟩)
    (hc2 : (⟨3, ![75, 4096, 8]⟩ : Shape).ShapeCasts ⟨2, ![75, 32768]⟩) (d : Fin 75) (n : Fin 8) (h w : Fin 64) :
    shapeCast ⟨2, ![75, 32768]⟩ (transpose ⟨3, ![75, 4096, 8]⟩ [1, 2, 0] (shapeCast ⟨3, ![8, 75, 4096]⟩ S hc1) ht) hc2
        (ix2 d (column n h w))
      = S (ix5 n (chan d) (⟨d.val % 25, Nat.mod_lt _ (by decide)⟩ : Fin 25) h w) := by
  have e2 : ((⟨3, ![75, 4096, 8]⟩ : Shape).rowMajor (ix3 d (position h w) n)).val
      = ((⟨2, ![75, 32768]⟩ : Shape).rowMajor (ix2 d (column n h w))).val := by
    rw [Shape.rowMajor_val_two, Shape.rowMajor_val_three]
    show (d.val * 4096 + (h.val * 64 + w.val)) * 8 + n.val = d.val * 32768 + ((h.val * 64 + w.val) * 8 + n.val)
    omega
  have e1 : ((⟨5, ![8, 3, 25, 64, 64]⟩ : Shape).rowMajor (ix5 n (chan d) (⟨d.val % 25, Nat.mod_lt _ (by decide)⟩ : Fin 25) h w)).val
      = ((⟨3, ![8, 75, 4096]⟩ : Shape).rowMajor (ix3 n d (position h w))).val := by
    rw [Shape.rowMajor_val_three, Shape.rowMajor_val_five]
    show (((n.val * 3 + d.val / 25) * 25 + d.val % 25) * 64 + h.val) * 64 + w.val = (n.val * 75 + d.val) * 4096 + (h.val * 64 + w.val)
    omega
  rw [shapeCast_apply _ hc2 _ _ e2]
  rw [transpose_apply [1, 2, 0] _ ht (ix3 d (position h w) n) (ix3 n d (position h w)) (fun b => by
    match b with
    | ⟨0, _⟩ => rfl
    | ⟨1, _⟩ => rfl
    | ⟨2, _⟩ => rfl)]
  exact shapeCast_apply S hc1 _ _ e1

/-- The reference's last two steps: the 64 × 32768 matrix read as 64 × 64 × 64 × 8 with the image axis moved first holds, at
    (n, f, h, w), the matrix's entry of row f and column (64 h + w) · 8 + n. -/
theorem imagesFirst_apply (Z : (⟨2, ![64, 32768]⟩ : Shape).Idx → α)
    (hc : (⟨2, ![64, 32768]⟩ : Shape).ShapeCasts ⟨4, ![64, 64, 64, 8]⟩)
    (ht : (⟨4, ![64, 64, 64, 8]⟩ : Shape).Transposes [3, 0, 1, 2] ⟨4, ![8, 64, 64, 64]⟩) (n : Fin 8) (f h w : Fin 64) :
    transpose ⟨4, ![8, 64, 64, 64]⟩ [3, 0, 1, 2] (shapeCast ⟨4, ![64, 64, 64, 8]⟩ Z hc) ht (ix4 n f h w)
      = Z (ix2 f (column n h w)) := by
  rw [transpose_apply [3, 0, 1, 2] _ ht (ix4 n f h w) (ix4 f h w n) (fun b => by
    match b with
    | ⟨0, _⟩ => rfl
    | ⟨1, _⟩ => rfl
    | ⟨2, _⟩ => rfl
    | ⟨3, _⟩ => rfl)]
  exact shapeCast_apply Z hc _ _ (by
    rw [Shape.rowMajor_val_two, Shape.rowMajor_val_four]
    show f.val * 32768 + ((h.val * 64 + w.val) * 8 + n.val) = ((f.val * 64 + h.val) * 64 + w.val) * 8 + n.val
    omega)

end DistanceConv

end
-- ==== Proof.KernelBlock.lean ====
/-
  What one grid point of the kernel writes, entry by entry.

  At grid point n the body holds the padded image n (a 1 × 3 × 68 × 68 block) and the whole filter bank. It cuts the 75
  shifted windows out of the image, stacks and flattens them to the 75 × 4096 patch matrix, reads the filter bank as a
  64 × 75 matrix, and stores the scores of the two as a 1 × 64 × 64 × 64 block. Entry (·, f, h, w) of that block is the
  specification's result for image n, filter f, position (h, w), whenever the image block holds image n of the padded array.
-/
import proofs.«111551_j49606872269313_1_alg».proof.Proof.Gen.KernelIdeal.Frame
import proofs.«111551_j49606872269313_1_alg».proof.Proof.Patches
import proofs.«111551_j49606872269313_1_alg».proof.Proof.Scores
import proofs.«111551_j49606872269313_1_alg».proof.Proof.Layout

noncomputable section

namespace Cert.KernelIdeal.Block

open Cert.KernelIdeal Cert.KernelIdeal.Gen Idealize.ShloMosaic Idealize.ShloMosaic.ValueIdx DistanceConv

theorem origin4 : (![0, 0, 0, 0] : Fin 4 → Nat) = fun _ => 0 := funext fun a => by fin_cases a <;> rfl

/-- The stored block is the body's arithmetic on the stacked windows of the image block and on the filter block. -/
theorem out_eq (x0 : Vec Ideal S1x3x68x68 .f32) (x1 : Vec Ideal S64x3x5x5 .f32) :
    out0_2 (F := Ideal) x0 x1
      = k0_pay1 (F := Ideal)
          (shapeCast S75x4096 (concatenate S75x64x64 0 (List.ofFn fun d : Fin 75 =>
            (⟨S1x64x64, window (k0_pay2 (F := Ideal) x0) d⟩ : (s : Shape) × (s.Idx → EReal))) (windows_stack _)) (by decide))
          (k0_pay97 (F := Ideal) x1) := by
  unfold out0_2
  rw [View.canon_unit_zero origin4]
  simp only [View.ld_unit_zero (S := S1x3x68x68) origin4, View.ld_unit_zero (S := S64x3x5x5) origin4]
  rfl

/-- The image block with its unit axis dropped. -/
theorem image_apply (x0 : Vec Ideal S1x3x68x68 .f32) (c : Fin 3) (a b : Fin 68) :
    k0_pay2 (F := Ideal) x0 (ix3 c a b) = x0 (ix4 (0 : Fin 1) c a b) := by
  unfold k0_pay2
  exact shapeCast_apply x0 _ _ _ (by
    rw [Shape.rowMajor_val_three, Shape.rowMajor_val_four]
    show ((0 * 3 + c.val) * 68 + a.val) * 68 + b.val = (c.val * 68 + a.val) * 68 + b.val
    omega)

/-- Entry (·, f, h, w) of the block stored at a point whose image block is image n of the padded array `xp`. -/
theorem block_apply (x0 : Vec Ideal S1x3x68x68 .f32) (x1 : Vec Ideal S64x3x5x5 .f32)
    (xp : (⟨4, ![8, 3, 68, 68]⟩ : Shape).Idx → EReal) (n : Fin 8)
    (hx : ∀ (c : Fin 3) (a b : Fin 68), x0 (ix4 (0 : Fin 1) c a b) = xp (ix4 n c a b))
    (u : Fin 1) (f h w : Fin 64) :
    out0_2 (F := Ideal) x0 x1 (ix4 u f h w) = resultAt xp x1 n f h w := by
  rw [out_eq]
  unfold k0_pay1
  refine (kernelScores_apply _ _ _ rfl _ _ _ _ _ _ _ _ _ _ u f h w).trans ?_
  have hA : ∀ d : Fin 75, k0_pay97 (F := Ideal) x1 (ix2 f d) = filt x1 f d := fun d => by
    unfold k0_pay97
    exact filterMatrix_apply x1 _ f d
  have hB : ∀ d : Fin 75, shapeCast S75x4096 (concatenate S75x64x64 0 (List.ofFn fun d : Fin 75 =>
        (⟨S1x64x64, window (k0_pay2 (F := Ideal) x0) d⟩ : (s : Shape) × (s.Idx → EReal))) (windows_stack _)) (by decide)
        (ix2 d (⟨h.val * 64 + w.val, by have := h.isLt; have := w.isLt; omega⟩ : Fin 4096)) = patch xp n d h w := fun d => by
    rw [imageCols_apply, image_apply, hx]
    rfl
  unfold score resultAt
  simp only [hA, hB]

end Cert.KernelIdeal.Block

end
-- ==== Proof.KernelValue.lean ====
/-
  The kernel's whole result array.

  The grid has eight points, one per image. Point n fetches image n of the padded array (the block of index (n, 0, 0, 0) of
  8 × 3 × 68 × 68) and the whole filter bank, and writes block (n, 0, 0, 0) of the 8 × 64 × 64 × 64 result. The eight blocks
  tile the result array, so after the run the array holds, at (n, f, h, w), what point n stored at (·, f, h, w): the
  specification's result of the padded input and the filter bank.
-/
import proofs.«111551_j49606872269313_1_alg».proof.Proof.Gen.KernelIdeal.Value
import proofs.«111551_j49606872269313_1_alg».proof.Proof.KernelBlock
import Idealize.ShloMosaic.Lib.StableHlo.Run

noncomputable section

namespace Cert.KernelIdeal.Whole

open Cert.KernelIdeal Cert.KernelIdeal.Gen Idealize.ShloMosaic Idealize.ShloMosaic.ValueIdx Idealize.ShloMosaic.TcCoe
open Idealize.SL.Sem DistanceConv
open Idealize.ShloMosaic.Pipeline (Dat)

variable (m : (ℓ : Loc nD τ sig) → Buf (Elt Ideal) ℓ) (ρ : Dev nD → PrngReg)

/-- The result array the run is to end with: the specification's result of the padded first argument and the second. -/
abbrev target (c : Dev nD) : S8x64x64x64.Idx → EReal :=
  result (padded (m ((c : Thread nD τ).loc main_arg0))) (m ((c : Thread nD τ).loc main_arg1))

/-- The array the first window stages is the padded first argument: the host code before the call pads it. -/
theorem padded_eq (c : Dev nD) :
    (V m c main_v0 : S8x3x68x68.Idx → EReal) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-- The index maps over the eight points: point t fetches image block t and the one filter block, and writes result block t. -/
theorem index_maps : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The filter window's block is the whole second argument, at every point. -/
theorem filters_eq (c : Dev nD) (t : Fin cfg0.N) :
    (iblk m c 1 t : S64x3x5x5.Idx → EReal) = m ((c : Thread nD τ).loc main_arg1) := by
  obtain ⟨-, -, -, -, e0, e1, e2, e3, -⟩ := index_maps t
  funext y
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 4) * 64 + 1 * (y 0).val = (y 0).val; omega
  | ⟨1, _⟩ => show win0_1.index t (1 : Fin 4) * 3 + 1 * (y 1).val = (y 1).val; omega
  | ⟨2, _⟩ => show win0_1.index t (2 : Fin 4) * 5 + 1 * (y 2).val = (y 2).val; omega
  | ⟨3, _⟩ => show win0_1.index t (3 : Fin 4) * 5 + 1 * (y 3).val = (y 3).val; omega

/-- The image window's block at point t is image t of the padded first argument. -/
theorem image_eq (c : Dev nD) (t : Fin cfg0.N) (ht : t.val < 8) (ch : Fin 3) (a b : Fin 68) :
    (iblk m c 0 t : S1x3x68x68.Idx → EReal) (ix4 (0 : Fin 1) ch a b)
      = padded (m ((c : Thread nD τ).loc main_arg0)) (ix4 (⟨t.val, ht⟩ : Fin 8) ch a b) := by
  obtain ⟨e0, e1, e2, e3, -⟩ := index_maps t
  show V m c main_v0 (((cfg0.win 0).blk t).view.emb (ix4 (0 : Fin 1) ch a b)) = _
  rw [padded_eq]
  refine congrArg (padded (m ((c : Thread nD τ).loc main_arg0))) (funext fun ax => Fin.ext ?_)
  match ax with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 68 + 1 * a.val = a.val; omega
  | ⟨3, _⟩ => show win0_0.index t (3 : Fin 4) * 68 + 1 * b.val = b.val; omega

/-- What point t writes back is block t of the target array. -/
theorem flushed_eq (c : Dev nD) (t : Fin cfg0.N) :
    (dats m 0 c).flushed 2 t = ((cfg0.win 2).blk t).view.read (Elt Ideal) (target m c) := by
  have ht : t.val < 8 := lt_of_lt_of_eq t.isLt (show cfg0.N = 8 from N_0)
  obtain ⟨-, -, -, -, -, -, -, -, e0, e1, e2, e3⟩ := index_maps t
  rw [Value.flushed2]
  funext j
  obtain ⟨u, f, h, w, rfl⟩ : ∃ (u : Fin 1) (f h w : Fin 64), j = ix4 u f h w := ⟨j 0, j 1, j 2, j 3, eq_ix4 j⟩
  show out0_2 (F := Ideal) (iblk m c 0 t) (iblk m c 1 t) (ix4 u f h w)
    = target m c (((cfg0.win 2).blk t).view.emb (ix4 u f h w))
  have hemb : ((cfg0.win 2).blk t).view.emb (ix4 u f h w) = ix4 (⟨t.val, ht⟩ : Fin 8) f h w := funext fun a => Fin.ext (by
    have hu := u.isLt
    match a with
    | ⟨0, _⟩ => show win0_2.index t (0 : Fin 4) * 1 + 1 * u.val = t.val; omega
    | ⟨1, _⟩ => show win0_2.index t (1 : Fin 4) * 64 + 1 * f.val = f.val; omega
    | ⟨2, _⟩ => show win0_2.index t (2 : Fin 4) * 64 + 1 * h.val = h.val; omega
    | ⟨3, _⟩ => show win0_2.index t (3 : Fin 4) * 64 + 1 * w.val = w.val; omega)
  rw [hemb]
  refine (Block.block_apply (iblk m c 0 t) (iblk m c 1 t) (padded (m ((c : Thread nD τ).loc main_arg0))) ⟨t.val, ht⟩
    (image_eq m c t ht) u f h w).trans ?_
  rw [filters_eq]
  rfl

/-- An index of the result array lies in point t's block iff each coordinate lies in the block's range on its axis. -/
theorem mem_block (t : Fin cfg0.N) (i : S8x64x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v1).slice (win0_2.rect t)).set ↔ _
  rw [View.set_slice_whole, Rect.mem_set_unit]
  exact Iff.rfl

/-- The eight blocks tile the result array, so after the run it is the target. -/
theorem final (c : Dev nD) : (dats m 0 c).arrAt 2 cfg0.N = target m c :=
  (dats m 0 c).arrAt_eq_of_cover 2 (target m c) (fun t _ => flushed_eq m c t) fun i => by
    have hi0 : (i 0).val < 8 := (i 0).isLt
    have hi1 : (i 1).val < 64 := (i 1).isLt
    have hi2 : (i 2).val < 64 := (i 2).isLt
    have hi3 : (i 3).val < 64 := (i 3).isLt
    have hN : (i 0).val < cfg0.N := lt_of_lt_of_eq hi0 (show cfg0.N = 8 from N_0).symm
    obtain ⟨-, -, -, -, -, -, -, -, e0, e1, e2, e3⟩ := index_maps ⟨(i 0).val, hN⟩
    have e0' : win0_2.index ⟨(i 0).val, hN⟩ (0 : Fin 4) = (i 0).val := e0
    refine ⟨⟨(i 0).val, hN⟩, flush0_2 _, ?_⟩
    rw [mem_block]
    intro a
    match a with
    | ⟨0, _⟩ =>
      show win0_2.index ⟨(i 0).val, hN⟩ (0 : Fin 4) * 1 ≤ (i 0).val
        ∧ (i 0).val < win0_2.index ⟨(i 0).val, hN⟩ (0 : Fin 4) * 1 + 1
      omega
    | ⟨1, _⟩ =>
      show win0_2.index ⟨(i 0).val, hN⟩ (1 : Fin 4) * 64 ≤ (i 1).val
        ∧ (i 1).val < win0_2.index ⟨(i 0).val, hN⟩ (1 : Fin 4) * 64 + 64
      omega
    | ⟨2, _⟩ =>
      show win0_2.index ⟨(i 0).val, hN⟩ (2 : Fin 4) * 64 ≤ (i 2).val
        ∧ (i 2).val < win0_2.index ⟨(i 0).val, hN⟩ (2 : Fin 4) * 64 + 64
      omega
    | ⟨3, _⟩ =>
      show win0_2.index ⟨(i 0).val, hN⟩ (3 : Fin 4) * 64 ≤ (i 3).val
        ∧ (i 3).val < win0_2.index ⟨(i 0).val, hN⟩ (3 : Fin 4) * 64 + 64
      omega

/-- The kernel's run: it terminates with the result array at the target and the arguments unchanged. -/
theorem run : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Stack.lean ====
/-
  The reference's stack of shifted windows, read at an entry.

  For each of the 25 stencil offsets k (row offset k / 5, column offset k mod 5) the reference cuts the 8 × 3 × 64 × 64
  window at that offset out of the padded 8 × 3 × 68 × 68 array, gives it a unit axis behind the channel axis, and stacks
  the 25 windows along that axis: the first 16 into one array, the last 9 into another, and the two end to end. Entry
  (n, c, k, h, w) of the stack is entry (n, c, k / 5 + h, k mod 5 + w) of the padded array (`stack_apply`).

  Read with the channel and the offset as ONE axis of length 75 — position 25 c + k, which is feature d with channel d / 25
  and offset d mod 25 — the stack holds the patches: that is `stack_feature`, in the words of the specification.
-/
import Idealize.ShloMosaic.Lib.Pipeline.Value
import Idealize.ShloMosaic.Lib.ValueIdx
import proofs.«111551_j49606872269313_1_alg».proof.Proof.Spec

noncomputable section

namespace DistanceConv

open Idealize.ShloMosaic Idealize.ShloMosaic.ValueIdx

variable {α : Type}

/-- Every stencil offset leaves room for a 64 × 64 window inside each 68 × 68 channel. -/
theorem shift_fits (k : Fin 25) :
    (⟨4, ![8, 3, 68, 68]⟩ : Shape).Slices ![0, 0, k.val / 5, k.val % 5] ⟨4, ![8, 3, 64, 64]⟩ :=
  ⟨rfl, fun a => by
    have hk := k.isLt
    match a with
    | ⟨0, _⟩ => show 0 + 8 ≤ 8; omega
    | ⟨1, _⟩ => show 0 + 3 ≤ 3; omega
    | ⟨2, _⟩ => show k.val / 5 + 64 ≤ 68; omega
    | ⟨3, _⟩ => show k.val % 5 + 64 ≤ 68; omega⟩

/-- An 8 × 3 × 64 × 64 array takes a unit axis behind its channel axis. -/
theorem unitAxis : (⟨4, ![8, 3, 64, 64]⟩ : Shape).BroadcastsInDim ⟨5, ![8, 3, 1, 64, 64]⟩ ![0, 1, 3, 4] := by decide

/-- The window at stencil offset k of every image and channel, with a unit axis behind the channel axis. -/
def shifted (xp : (⟨4, ![8, 3, 68, 68]⟩ : Shape).Idx → α)
    (hb : (⟨4, ![8, 3, 64, 64]⟩ : Shape).BroadcastsInDim ⟨5, ![8, 3, 1, 64, 64]⟩ ![0, 1, 3, 4]) (k : Fin 25) :
    (⟨5, ![8, 3, 1, 64, 64]⟩ : Shape).Idx → α :=
  broadcastInDim ⟨5, ![8, 3, 1, 64, 64]⟩ ![0, 1, 3, 4] hb
    (extractStridedSlice ⟨4, ![8, 3, 64, 64]⟩ ![0, 0, k.val / 5, k.val % 5] xp (shift_fits k))

/-- Entry (n, c, ·, h, w) of the window at offset k is the padded array's entry h rows below row k / 5 and w columns
    right of column k mod 5. -/
theorem shifted_apply (xp : (⟨4, ![8, 3, 68, 68]⟩ : Shape).Idx → α)
    (hb : (⟨4, ![8, 3, 64, 64]⟩ : Shape).BroadcastsInDim ⟨5, ![8, 3, 1, 64, 64]⟩ ![0, 1, 3, 4]) (k : Fin 25)
    (n : Fin 8) (c : Fin 3) (u : Fin 1) (h w : Fin 64) :
    shifted xp hb k (ix5 n c u h w)
      = xp (ix4 n c ⟨k.val / 5 + h.val, by have := k.isLt; have := h.isLt; omega⟩
          ⟨k.val % 5 + w.val, by have := k.isLt; have := w.isLt; omega⟩) := by
  unfold shifted
  rw [broadcastInDim_apply _ hb _ (ix5 n c u h w) (ix4 n c h w) (fun a => by
    match a with
    | ⟨0, _⟩ => rfl
    | ⟨1, _⟩ => rfl
    | ⟨2, _⟩ => rfl
    | ⟨3, _⟩ => rfl)]
  exact extractStridedSlice_apply _ xp _ _ _ (fun a => by
    match a with
    | ⟨0, _⟩ => show n.val = 0 + n.val; omega
    | ⟨1, _⟩ => show c.val = 0 + c.val; omega
    | ⟨2, _⟩ => rfl
    | ⟨3, _⟩ => rfl)

/-- Sixteen, and nine, arrays of shape 8 × 3 × 1 × 64 × 64 stack along the third axis; in particular the first sixteen and the
    last nine windows do. -/
theorem stack16 :
    Shape.Concatenates (List.replicate 16 (⟨5, ![8, 3, 1, 64, 64]⟩ : Shape)) ⟨5, ![8, 3, 16, 64, 64]⟩ 2 := by decide
theorem stack9 :
    Shape.Concatenates (List.replicate 9 (⟨5, ![8, 3, 1, 64, 64]⟩ : Shape)) ⟨5, ![8, 3, 9, 64, 64]⟩ 2 := by decide

theorem shifted_stack16 (xp : (⟨4, ![8, 3, 68, 68]⟩ : Shape).Idx → α)
    (hb : (⟨4, ![8, 3, 64, 64]⟩ : Shape).BroadcastsInDim ⟨5, ![8, 3, 1, 64, 64]⟩ ![0, 1, 3, 4]) :
    Shape.Concatenates ((List.ofFn fun k : Fin 16 =>
      (⟨⟨5, ![8, 3, 1, 64, 64]⟩, shifted xp hb ⟨k.val, by have := k.isLt; omega⟩⟩ : (s : Shape) × (s.Idx → α))).map (·.1))
      ⟨5, ![8, 3, 16, 64, 64]⟩ 2 := stack16

theorem shifted_stack9 (xp : (⟨4, ![8, 3, 68, 68]⟩ : Shape).Idx → α)
    (hb : (⟨4, ![8, 3, 64, 64]⟩ : Shape).BroadcastsInDim ⟨5, ![8, 3, 1, 64, 64]⟩ ![0, 1, 3, 4]) :
    Shape.Concatenates ((List.ofFn fun k : Fin 9 =>
      (⟨⟨5, ![8, 3, 1, 64, 64]⟩, shifted xp hb ⟨16 + k.val, by have := k.isLt; omega⟩⟩ : (s : Shape) × (s.Idx → α))).map (·.1))
      ⟨5, ![8, 3, 9, 64, 64]⟩ 2 := stack9

/-- The stack of sixteen and the stack of nine lie end to end along the third axis. -/
theorem shifted_stack25 :
    Shape.Concatenates [(⟨5, ![8, 3, 16, 64, 64]⟩ : Shape), (⟨5, ![8, 3, 9, 64, 64]⟩ : Shape)] ⟨5, ![8, 3, 25, 64, 64]⟩ 2 := by
  decide

/-- The 25 windows stacked as the reference stacks them (16, then 9, then the two end to end), read at an entry. -/
theorem stack_apply (xp : (⟨4, ![8, 3, 68, 68]⟩ : Shape).Idx → α)
    (hb : (⟨4, ![8, 3, 64, 64]⟩ : Shape).BroadcastsInDim ⟨5, ![8, 3, 1, 64, 64]⟩ ![0, 1, 3, 4])
    (h16 : Shape.Concatenates ((List.ofFn fun k : Fin 16 =>
      (⟨⟨5, ![8, 3, 1, 64, 64]⟩, shifted xp hb ⟨k.val, by have := k.isLt; omega⟩⟩ : (s : Shape) × (s.Idx → α))).map (·.1))
      ⟨5, ![8, 3, 16, 64, 64]⟩ 2)
    (h9 : Shape.Concatenates ((List.ofFn fun k : Fin 9 =>
      (⟨⟨5, ![8, 3, 1, 64, 64]⟩, shifted xp hb ⟨16 + k.val, by have := k.isLt; omega⟩⟩ : (s : Shape) × (s.Idx → α))).map (·.1))
      ⟨5, ![8, 3, 9, 64, 64]⟩ 2)
    (h25 : Shape.Concatenates [(⟨5, ![8, 3, 16, 64, 64]⟩ : Shape), (⟨5, ![8, 3, 9, 64, 64]⟩ : Shape)] ⟨5, ![8, 3, 25, 64, 64]⟩ 2)
    (n : Fin 8) (c : Fin 3) (k : Fin 25) (h w : Fin 64) :
    concatenate ⟨5, ![8, 3, 25, 64, 64]⟩ 2
        [⟨⟨5, ![8, 3, 16, 64, 64]⟩, concatenate ⟨5, ![8, 3, 16, 64, 64]⟩ 2 (List.ofFn fun k : Fin 16 =>
            (⟨⟨5, ![8, 3, 1, 64, 64]⟩, shifted xp hb ⟨k.val, by have := k.isLt; omega⟩⟩ : (s : Shape) × (s.Idx → α))) h16⟩,
         ⟨⟨5, ![8, 3, 9, 64, 64]⟩, concatenate ⟨5, ![8, 3, 9, 64, 64]⟩ 2 (List.ofFn fun k : Fin 9 =>
            (⟨⟨5, ![8, 3, 1, 64, 64]⟩, shifted xp hb ⟨16 + k.val, by have := k.isLt; omega⟩⟩ : (s : Shape) × (s.Idx → α))) h9⟩]
        h25 (ix5 n c k h w)
      = xp (ix4 n c ⟨k.val / 5 + h.val, by have := k.isLt; have := h.isLt; omega⟩
          ⟨k.val % 5 + w.val, by have := k.isLt; have := w.isLt; omega⟩) := by
  rw [← shifted_apply xp hb k n c 0 h w]
  by_cases hk : k.val < 16
  · rw [concatenate_pair_apply_left 2 _ _ h25 (ix5 n c k h w) rfl (ix5 n c (⟨k.val, hk⟩ : Fin 16) h w) (fun b => by
      match b with
      | ⟨0, _⟩ => rfl
      | ⟨1, _⟩ => rfl
      | ⟨2, _⟩ => rfl
      | ⟨3, _⟩ => rfl
      | ⟨4, _⟩ => rfl)]
    exact concatenate_ofFn_unit_apply 2 _ h16 rfl rfl (ix5 n c (⟨k.val, hk⟩ : Fin 16) h w) ⟨k.val, hk⟩ rfl (ix5 n c 0 h w)
      (fun b hb' => by
        match b with
        | ⟨0, _⟩ => rfl
        | ⟨1, _⟩ => rfl
        | ⟨2, _⟩ => exact absurd rfl hb'
        | ⟨3, _⟩ => rfl
        | ⟨4, _⟩ => rfl)
  · have hk9 : k.val - 16 < 9 := by have := k.isLt; omega
    rw [concatenate_pair_apply_right 2 _ _ h25 (ix5 n c k h w) rfl rfl (ix5 n c (⟨k.val - 16, hk9⟩ : Fin 9) h w) (fun b hb' => by
      match b with
      | ⟨0, _⟩ => rfl
      | ⟨1, _⟩ => rfl
      | ⟨2, _⟩ => exact absurd rfl hb'
      | ⟨3, _⟩ => rfl
      | ⟨4, _⟩ => rfl) (by show (k.val - 16) + 16 = k.val; omega)]
    have e : (⟨16 + (k.val - 16), by omega⟩ : Fin 25) = k := Fin.ext (by show 16 + (k.val - 16) = k.val; omega)
    refine (concatenate_ofFn_unit_apply 2 _ h9 rfl rfl (ix5 n c (⟨k.val - 16, hk9⟩ : Fin 9) h w) ⟨k.val - 16, hk9⟩ rfl (ix5 n c 0 h w)
      (fun b hb' => by
        match b with
        | ⟨0, _⟩ => rfl
        | ⟨1, _⟩ => rfl
        | ⟨2, _⟩ => exact absurd rfl hb'
        | ⟨3, _⟩ => rfl
        | ⟨4, _⟩ => rfl)).trans ?_
    exact congrArg (fun q => shifted xp hb q (ix5 n c 0 h w)) e

end DistanceConv

end
-- ==== Proof.RefValue.lean ====
/-
  The reference's result array.

  The reference pads the input, stacks the 25 shifted windows of the padded array, reads the stack as the 75 × 32768 patch
  matrix of all eight images (column (64 h + w) · 8 + n for image n at position (h, w)), reads the filter bank as a 64 × 75
  matrix, forms the scores of the two on the host, and reads the 64 × 32768 score matrix back as 8 × 64 × 64 × 64 with the
  image axis first. At (n, f, h, w) that is the specification's result of the padded input and the filter bank.
-/
import proofs.«111551_j49606872269313_1_alg».proof.Proof.Gen.ReferenceIdeal.Run
import proofs.«111551_j49606872269313_1_alg».proof.Proof.Stack
import proofs.«111551_j49606872269313_1_alg».proof.Proof.Scores
import proofs.«111551_j49606872269313_1_alg».proof.Proof.Layout

noncomputable section

namespace Cert.ReferenceIdeal.RefValue

open Cert.ReferenceIdeal Cert.ReferenceIdeal.Gen Idealize.ShloMosaic Idealize.ShloMosaic.ValueIdx Idealize.ShloMosaic.TcCoe
open Idealize.SL.Sem DistanceConv

/-- The reference's patch matrix of all images, from the input: pad, stack the 25 shifted windows, read channel and offset
    as one axis of 75 features and the positions as 4096 columns, move the image axis last, and read positions and images as
    one axis of 32768 columns. -/
def allPatches (x : (⟨4, ![8, 3, 64, 64]⟩ : Shape).Idx → EReal) : S75x32768.Idx → EReal :=
  shapeCast S75x32768 (transpose S75x4096x8 [1, 2, 0] (shapeCast S8x75x4096
    (concatenate S8x3x25x64x64 2
      [⟨S8x3x16x64x64, concatenate S8x3x16x64x64 2 (List.ofFn fun k : Fin 16 =>
          (⟨S8x3x1x64x64, shifted (padded x) unitAxis ⟨k.val, by have := k.isLt; omega⟩⟩ : (s : Shape) × (s.Idx → EReal)))
          (shifted_stack16 _ unitAxis)⟩,
       ⟨S8x3x9x64x64, concatenate S8x3x9x64x64 2 (List.ofFn fun k : Fin 9 =>
          (⟨S8x3x1x64x64, shifted (padded x) unitAxis ⟨16 + k.val, by have := k.isLt; omega⟩⟩ : (s : Shape) × (s.Idx → EReal)))
          (shifted_stack9 _ unitAxis)⟩]
      shifted_stack25) (by decide)) (by decide)) (by decide)

/-- Row d, column (64 h + w) · 8 + n of the patch matrix is entry d of the patch of image n at (h, w). -/
theorem allPatches_apply (x : (⟨4, ![8, 3, 64, 64]⟩ : Shape).Idx → EReal) (d : Fin 75) (n : Fin 8) (h w : Fin 64) :
    allPatches x (ix2 d (column n h w)) = patch (padded x) n d h w := by
  unfold allPatches
  rw [allColumns_apply, stack_apply]
  refine congrArg (padded x) (funext fun a => Fin.ext ?_)
  match a with
  | ⟨0, _⟩ => rfl
  | ⟨1, _⟩ => rfl
  | ⟨2, _⟩ => rfl
  | ⟨3, _⟩ => show d.val % 25 % 5 + w.val = d.val % 5 + w.val; omega

/-- The reference's result is the specification's result of the padded first argument and the second. -/
theorem result_eq (m : (ℓ : Loc nD τ sig) → Buf (Elt Ideal) ℓ) (c : Dev nD) :
    Cert.ReferenceIdeal.Value.res_main_v72 (F := Ideal) m c
      = result (padded (m ((c.tc : Thread nD τ).loc main_arg0))) (m ((c.tc : Thread nD τ).loc main_arg1)) := by
  funext j
  obtain ⟨n, f, h, w, rfl⟩ : ∃ (n : Fin 8) (f h w : Fin 64), j = ix4 n f h w := ⟨j 0, j 1, j 2, j 3, eq_ix4 j⟩
  rw [result_apply]
  unfold Cert.ReferenceIdeal.Value.res_main_v72
  rw [imagesFirst_apply]
  refine (hostScores_apply (shapeCast S64x75 (m ((c.tc : Thread nD τ).loc main_arg1)) (by decide : S64x3x5x5.ShapeCasts S64x75))
    (allPatches (m ((c.tc : Thread nD τ).loc main_arg0)))
    dot_S64x75_S75x32768_S64x32768_1_0_0_1_n_n rfl _ _ _ _ _ _ _ _ f (column n h w)).trans ?_
  unfold score resultAt filt
  simp only [filterMatrix_apply, allPatches_apply]

end Cert.ReferenceIdeal.RefValue

end
-- ==== Proof.lean ====
/-
  A distance convolution against its reference, over the extended reals.

  The input is eight images of three 64 × 64 channels and a bank of 64 filters of three 5 × 5 channels. Every channel is
  padded with a border of two zeros. At an output position (h, w) of image n the PATCH is the vector of the 75 entries under
  the 5 × 5 × 3 stencil placed there, and the result for filter f is

      ⟨filter f, patch⟩ − ½ · (‖patch‖² + ‖filter f‖²),

  the expanded form of −½ ‖patch − filter f‖² (Proof/Spec.lean states it; nothing in the proof expands or contracts it, so
  no entry has to be finite and the precondition is never opened).

  The kernel runs one grid point per image: it cuts the 75 shifted windows out of the padded image, stacks them into the
  75 × 4096 patch matrix, and forms the scores against the 64 × 75 filter matrix on the matrix unit and with lane sums
  (Proof/Patches.lean, Proof/Scores.lean, Proof/KernelBlock.lean); the eight blocks it writes tile the result
  (Proof/KernelValue.lean). The reference stacks the 25 shifted windows of all images at once, lines all images' positions up
  as the 32768 columns of one patch matrix, column (64 h + w) · 8 + n, forms the same scores on the host and reads them back
  image first (Proof/Stack.lean, Proof/Layout.lean, Proof/RefValue.lean). Both end at `result (padded x) W`.

  The three frames: the two kernels' are the generated frame proofs; the reference has no kernel, and its frame is its
  run with the result dropped. The idealization rewrote nothing, so `preserves` is `True`.
-/
import proofs.«111551_j49606872269313_1_alg».proof.Defs
import proofs.«111551_j49606872269313_1_alg».proof.Proof.Gen.Kernel
import proofs.«111551_j49606872269313_1_alg».proof.Proof.Gen.Kernel.Skeleton
import proofs.«111551_j49606872269313_1_alg».proof.Proof.Gen.Kernel.Launch
import proofs.«111551_j49606872269313_1_alg».proof.Proof.Gen.Kernel.Points
import proofs.«111551_j49606872269313_1_alg».proof.Proof.Gen.Kernel.Frame
import proofs.«111551_j49606872269313_1_alg».proof.Proof.Gen.KernelIdeal
import proofs.«111551_j49606872269313_1_alg».proof.Proof.Gen.KernelIdeal.Skeleton
import proofs.«111551_j49606872269313_1_alg».proof.Proof.Gen.KernelIdeal.Launch
import proofs.«111551_j49606872269313_1_alg».proof.Proof.Gen.KernelIdeal.Points
import proofs.«111551_j49606872269313_1_alg».proof.Proof.Gen.KernelIdeal.Frame
import proofs.«111551_j49606872269313_1_alg».proof.Proof.Gen.ReferenceIdeal
import proofs.«111551_j49606872269313_1_alg».proof.Proof.Gen.Pre_finite_inputs
import proofs.«111551_j49606872269313_1_alg».proof.Proof.Gen.KernelIdeal.Value
import proofs.«111551_j49606872269313_1_alg».proof.Proof.Gen.ReferenceIdeal.Run
import proofs.«111551_j49606872269313_1_alg».proof.Proof.KernelValue
import proofs.«111551_j49606872269313_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host code only: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at the specification's result of
    the padded first argument and the second; the arguments are unchanged. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
